-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S8x512x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048 : Shape := ⟨2, ![128, 2048]⟩
abbrev S128x2048x64 : Shape := ⟨3, ![128, 2048, 64]⟩
abbrev S128x64 : Shape := ⟨2, ![128, 64]⟩
abbrev S512x64 : Shape := ⟨2, ![512, 64]⟩
abbrev S512 : Shape := ⟨1, ![512]⟩
abbrev S8x64 : Shape := ⟨2, ![8, 64]⟩
abbrev S8 : Shape := ⟨1, ![8]⟩
abbrev S_ : Shape := ⟨0, ![]⟩

class Facts : Prop where
  bcast_S_S128x2048x64 : S_.BroadcastsInDim S128x2048x64 (![] : Fin 0 → Fin S128x2048x64.rank)
  reducesTo_S128x2048x64_S_d0_1_2 : S128x2048x64.ReducesTo [0, 1, 2] S_
  h_S_ : 0 < S_.numel
  bcast_S_S128x64 : S_.BroadcastsInDim S128x64 (![] : Fin 0 → Fin S128x64.rank)
  reducesTo_S128x64_S_d0_1 : S128x64.ReducesTo [0, 1] S_
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_
  bcast_S_S8x64 : S_.BroadcastsInDim S8x64 (![] : Fin 0 → Fin S8x64.rank)
  reducesTo_S8x64_S_d0_1 : S8x64.ReducesTo [0, 1] S_
  bcast_S_S8 : S_.BroadcastsInDim S8 (![] : Fin 0 → Fin S8.rank)
  reducesTo_S8_S_d0 : S8.ReducesTo [0] S_
  bcast_S_S128x2048 : S_.BroadcastsInDim S128x2048 (![] : Fin 0 → Fin S128x2048.rank)
  reducesTo_S128x2048_S_d0_1 : S128x2048.ReducesTo [0, 1] S_

variable [Facts]

def fn_part2 {F : FTy → Type} [FloatOps F] (main_arg0 : IVec S128x2048 32) (main_arg8 : FVec F S8 .f32) (main_v33 : IVec S_ 1) : IVec S_ 1 :=
  let main_v34 : FVec F S8 .f32 := Host.absf main_arg8
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_c_14 : IVec S_ 32 := constantI S_ 32 0#32
  let main_v39 : IVec S128x2048 32 := broadcastInDim S128x2048 ![] bcast_S_S128x2048 main_c_14
  let main_v40 : IVec S128x2048 1 := cmpi .sge main_arg0 main_v39
  let main_c_15 : IVec S_ 1 := constantI S_ 1 1#1
  let main_v41 : IVec S_ 1 := (fun x v => Host.reduce IntOp.andi x v reducesTo_S128x2048_S_d0_1 h_S_) main_v40 main_c_15
  let main_v42 : IVec S_ 1 := andi main_v38 main_v41
  let main_c_16 : IVec S_ 32 := constantI S_ 32 8#32
  let main_v43 : IVec S128x2048 32 := broadcastInDim S128x2048 ![] bcast_S_S128x2048 main_c_16
  let main_v44 : IVec S128x2048 1 := cmpi .slt main_arg0 main_v43
  let main_c_17 : IVec S_ 1 := constantI S_ 1 1#1
  let main_v45 : IVec S_ 1 := (fun x v => Host.reduce IntOp.andi x v reducesTo_S128x2048_S_d0_1 h_S_) main_v44 main_c_17
  let main_v46 : IVec S_ 1 := andi main_v42 main_v45
  main_v46

def fn_part1 {F : FTy → Type} [FloatOps F] (main_arg0 : IVec S128x2048 32) (main_arg5 : FVec F S512x64 .f32) (main_arg6 : FVec F S512 .f32) (main_arg7 : FVec F S8x64 .f32) (main_arg8 : FVec F S8 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x64 .f32 := Host.absf main_arg5
  let main_cst_6 : FVec F S_ .f32 := constant S_ .f32 0x7F800000#32
  let main_v20 : FVec F S512x64 .f32 := broadcastInDim S512x64 ![] bcast_S_S512x64 main_cst_6
  let main_v21 : IVec S512x64 1 := cmpf .olt main_v19 main_v20
  let main_c_7 : IVec S_ 1 := constantI S_ 1 1#1
  let main_v22 : IVec S_ 1 := (fun x v => Host.reduce IntOp.andi x v reducesTo_S512x64_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S8x64 .f32 := Host.absf main_arg7
  let main_cst_10 : FVec F S_ .f32 := constant S_ .f32 0x7F800000#32
  let main_v30 : FVec F S8x64 .f32 := broadcastInDim S8x64 ![] bcast_S_S8x64 main_cst_10
  let main_v31 : IVec S8x64 1 := cmpf .olt main_v29 main_v30
  let main_c_11 : IVec S_ 1 := constantI S_ 1 1#1
  let main_v32 : IVec S_ 1 := (fun x v => Host.reduce IntOp.andi x v reducesTo_S8x64_S_d0_1 h_S_) main_v31 main_c_11
  let main_v33 : IVec S_ 1 := andi main_v28 main_v32
  fn_part2 (F := F) main_arg0 main_arg8 main_v33

def fn {F : FTy → Type} [FloatOps F] (main_arg0 : IVec S128x2048 32) (main_arg1 : FVec F S128x2048x64 .f32) (main_arg2 : FVec F S128x64 .f32) (main_arg3 : FVec F S512x64 .f32) (main_arg4 : FVec F S512 .f32) (main_arg5 : FVec F S512x64 .f32) (main_arg6 : FVec F S512 .f32) (main_arg7 : FVec F S8x64 .f32) (main_arg8 : FVec F S8 .f32) : IVec S_ 1 :=
  let main_v0 : FVec F S128x2048x64 .f32 := Host.absf main_arg1
  let main_cst : FVec F S_ .f32 := constant S_ .f32 0x7F800000#32
  let main_v1 : FVec F S128x2048x64 .f32 := broadcastInDim S128x2048x64 ![] bcast_S_S128x2048x64 main_cst
  let main_v2 : IVec S128x2048x64 1 := cmpf .olt main_v0 main_v1
  let main_c : IVec S_ 1 := constantI S_ 1 1#1
  let main_v3 : IVec S_ 1 := (fun x v => Host.reduce IntOp.andi x v reducesTo_S128x2048x64_S_d0_1_2 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S512x64 .f32 := Host.absf main_arg3
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg0 main_arg5 main_arg6 main_arg7 main_arg8 main_v13 main_v16
-- ==== Kernel.lean ====
abbrev S128x2048 : Shape := ⟨2, ![128, 2048]⟩
abbrev S128x2048x64 : Shape := ⟨3, ![128, 2048, 64]⟩
abbrev S128x64 : Shape := ⟨2, ![128, 64]⟩
abbrev S512x64 : Shape := ⟨2, ![512, 64]⟩
abbrev S512 : Shape := ⟨1, ![512]⟩
abbrev S8x64 : Shape := ⟨2, ![8, 64]⟩
abbrev S8 : Shape := ⟨1, ![8]⟩
abbrev S64x512 : Shape := ⟨2, ![64, 512]⟩
abbrev S128x512 : Shape := ⟨2, ![128, 512]⟩
abbrev S1x512 : Shape := ⟨2, ![1, 512]⟩
abbrev S_ : Shape := ⟨0, ![]⟩
abbrev S128x8x64 : Shape := ⟨3, ![128, 8, 64]⟩
abbrev S64x8 : Shape := ⟨2, ![64, 8]⟩
abbrev S128x8 : Shape := ⟨2, ![128, 8]⟩
abbrev S1x8 : Shape := ⟨2, ![1, 8]⟩
abbrev S128x8x1 : Shape := ⟨3, ![128, 8, 1]⟩
abbrev S1024x64 : Shape := ⟨2, ![1024, 64]⟩
abbrev S1024x1 : Shape := ⟨2, ![1024, 1]⟩
abbrev S8x512 : Shape := ⟨2, ![8, 512]⟩
abbrev S8x512x64 : Shape := ⟨3, ![8, 512, 64]⟩
abbrev S64x64 : Shape := ⟨2, ![64, 64]⟩
abbrev S64x1 : Shape := ⟨2, ![64, 1]⟩
abbrev S64 : Shape := ⟨1, ![64]⟩
abbrev S8x512x1 : Shape := ⟨3, ![8, 512, 1]⟩
abbrev S4096x64 : Shape := ⟨2, ![4096, 64]⟩
abbrev S1x1x64 : Shape := ⟨3, ![1, 1, 64]⟩

abbrev nBuf : Space → Nat
  | .hbm => 42
  | .vmem => 12
  | .smem => 0
  | _ => 0

abbrev bufTy : (tb : Table) → Fin (tcTables nBuf tb) → BufTy
  | .hbm, ⟨0, _⟩ => ⟨S128x2048, .i32⟩
  | .hbm, ⟨1, _⟩ => ⟨S128x2048x64, .f32⟩
  | .hbm, ⟨2, _⟩ => ⟨S128x64, .f32⟩
  | .hbm, ⟨3, _⟩ => ⟨S512x64, .f32⟩
  | .hbm, ⟨4, _⟩ => ⟨S512, .f32⟩
  | .hbm, ⟨5, _⟩ => ⟨S512x64, .f32⟩
  | .hbm, ⟨6, _⟩ => ⟨S512, .f32⟩
  | .hbm, ⟨7, _⟩ => ⟨S8x64, .f32⟩
  | .hbm, ⟨8, _⟩ => ⟨S8, .f32⟩
  | .hbm, ⟨9, _⟩ => ⟨S64x512, .f32⟩
  | .hbm, ⟨10, _⟩ => ⟨S128x512, .f32⟩
  | .hbm, ⟨11, _⟩ => ⟨S1x512, .f32⟩
  | .hbm, ⟨12, _⟩ => ⟨S128x512, .f32⟩
  | .hbm, ⟨13, _⟩ => ⟨S128x512, .f32⟩
  | .hbm, ⟨14, _⟩ => ⟨S_, .f32⟩
  | .hbm, ⟨15, _⟩ => ⟨S128x512, .f32⟩
  | .hbm, ⟨16, _⟩ => ⟨S128x512, .f32⟩
  | .hbm, ⟨17, _⟩ => ⟨S128x8x64, .f32⟩
  | .hbm, ⟨18, _⟩ => ⟨S64x512, .f32⟩
  | .hbm, ⟨19, _⟩ => ⟨S128x512, .f32⟩
  | .hbm, ⟨20, _⟩ => ⟨S1x512, .f32⟩
  | .hbm, ⟨21, _⟩ => ⟨S128x512, .f32⟩
  | .hbm, ⟨22, _⟩ => ⟨S128x512, .f32⟩
  | .hbm, ⟨23, _⟩ => ⟨S_, .f32⟩
  | .hbm, ⟨24, _⟩ => ⟨S128x512, .f32⟩
  | .hbm, ⟨25, _⟩ => ⟨S128x512, .f32⟩
  | .hbm, ⟨26, _⟩ => ⟨S128x8x64, .f32⟩
  | .hbm, ⟨27, _⟩ => ⟨S64x8, .f32⟩
  | .hbm, ⟨28, _⟩ => ⟨S128x8, .f32⟩
  | .hbm, ⟨29, _⟩ => ⟨S1x8, .f32⟩
  | .hbm, ⟨30, _⟩ => ⟨S128x8, .f32⟩
  | .hbm, ⟨31, _⟩ => ⟨S128x8, .f32⟩
  | .hbm, ⟨32, _⟩ => ⟨S_, .f32⟩
  | .hbm, ⟨33, _⟩ => ⟨S128x8, .f32⟩
  | .hbm, ⟨34, _⟩ => ⟨S128x8, .f32⟩
  | .hbm, ⟨35, _⟩ => ⟨S128x8x1, .f32⟩
  | .hbm, ⟨36, _⟩ => ⟨S1024x64, .f32⟩
  | .hbm, ⟨37, _⟩ => ⟨S1024x64, .bf16⟩
  | .hbm, ⟨38, _⟩ => ⟨S1024x64, .f32⟩
  | .hbm, ⟨39, _⟩ => ⟨S1024x64, .bf16⟩
  | .hbm, ⟨40, _⟩ => ⟨S1024x1, .f32⟩
  | .hbm, ⟨41, _⟩ => ⟨S128x2048x64, .f32⟩
  | .local _ .vmem, ⟨0, _⟩ => ⟨S8x512, .i32⟩
  | .local _ .vmem, ⟨1, _⟩ => ⟨S8x512, .i32⟩
  | .local _ .vmem, ⟨2, _⟩ => ⟨S8x512x64, .f32⟩
  | .local _ .vmem, ⟨3, _⟩ => ⟨S8x512x64, .f32⟩
  | .local _ .vmem, ⟨4, _⟩ => ⟨S64x64, .bf16⟩
  | .local _ .vmem, ⟨5, _⟩ => ⟨S64x64, .bf16⟩
  | .local _ .vmem, ⟨6, _⟩ => ⟨S64x64, .bf16⟩
  | .local _ .vmem, ⟨7, _⟩ => ⟨S64x64, .bf16⟩
  | .local _ .vmem, ⟨8, _⟩ => ⟨S64x1, .f32⟩
  | .local _ .vmem, ⟨9, _⟩ => ⟨S64x1, .f32⟩
  | .local _ .vmem, ⟨10, _⟩ => ⟨S8x512x64, .f32⟩
  | .local _ .vmem, ⟨11, _⟩ => ⟨S8x512x64, .f32⟩
  | _, _ => ⟨S128x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_cst : Ref sig .tc := ⟨.hbm, 23, rfl⟩
abbrev main_call1_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call2_cst : Ref sig .tc := ⟨.hbm, 32, rfl⟩
abbrev main_call2_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S512x64_S64x512_1_0 : S512x64.Transposes [1, 0] S64x512
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  bcast_S_S128x512 : S_.BroadcastsInDim S128x512 (![] : Fin 0 → Fin S128x512.rank)
  shapeCasts_S128x512_S128x8x64 : S128x512.ShapeCasts S128x8x64
  transposes_S8x64_S64x8_1_0 : S8x64.Transposes [1, 0] S64x8
  bcast_S8_S1x8_1 : S8.BroadcastsInDim S1x8 (![1] : Fin 1 → Fin S1x8.rank)
  bcast_S1x8_S128x8_0_1 : S1x8.BroadcastsInDim S128x8 (![0, 1] : Fin 2 → Fin S128x8.rank)
  bcast_S_S128x8 : S_.BroadcastsInDim S128x8 (![] : Fin 0 → Fin S128x8.rank)
  shapeCasts_S128x8_S128x8x1 : S128x8.ShapeCasts S128x8x1
  shapeCasts_S128x8x64_S1024x64 : S128x8x64.ShapeCasts S1024x64
  bitsLt_bf16_f32 : FTy.bits .bf16 < FTy.bits .f32
  shapeCasts_S128x8x1_S1024x1 : S128x8x1.ShapeCasts S1024x1
  inb_S8x512_S8x512_0_0 : ∀ a, (![0, 0] : Fin 2 → Nat) a + S8x512.size a ≤ S8x512.size a
  h_S8x512 : 0 < S8x512.numel
  inb_S8x512x64_S8x512x64_0_0_0 : ∀ a, (![0, 0, 0] : Fin 3 → Nat) a + S8x512x64.size a ≤ S8x512x64.size a
  h_S8x512x64 : 0 < S8x512x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S64x1_S64 : S64x1.ShapeCasts S64
  iota_S8x512_d0_w32 : S8x512.Iotas .tc 32 [0]
  iota_S8x512x64_d2_w32 : S8x512x64.Iotas .tc 32 [2]
  shapeCasts_S8x512_S8x512x1 : S8x512.ShapeCasts S8x512x1
  broadcasts_S8x512x1_S8x512x64 : S8x512x1.Broadcasts S8x512x64
  natLt_1_32 : 1 < 32
  shapeCasts_S8x512x64_S4096x64 : S8x512x64.ShapeCasts S4096x64
  shapeCasts_S4096x64_S8x512x64 : S4096x64.ShapeCasts S8x512x64
  shapeCasts_S64_S1x1x64 : S64.ShapeCasts S1x1x64
  broadcasts_S1x1x64_S8x512x64 : S1x1x64.Broadcasts S8x512x64
  reduces_S8x512x64_S8x512 : S8x512x64.Reduces [2] S8x512
  dot_S128x64_S64x512_S128x512_1_0_0_1_n_n_wf : DotDims.WF S128x64 S64x512 S128x512 [1] [0] [0] [1] [] []
  dot_S128x64_S64x8_S128x8_1_0_0_1_n_n_wf : DotDims.WF S128x64 S64x8 S128x8 [1] [0] [0] [1] [] []
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S128x2048.size a
  hwx0_0 : ∀ i : grid0.Coords, EltTy.bits .i32 = 32 ∨ (Rect.block (s := S128x2048) S8x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x64.size a ≤ S128x2048x64.size a
  hwx0_1 : ∀ i : grid0.Coords, EltTy.bits .f32 = 32 ∨ (Rect.block (s := S128x2048x64) S8x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S1024x64.size a
  hwx0_2 : ∀ i : grid0.Coords, EltTy.bits .bf16 = 32 ∨ (Rect.block (s := S1024x64) S64x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S1024x64.size a
  hwx0_3 : ∀ i : grid0.Coords, EltTy.bits .bf16 = 32 ∨ (Rect.block (s := S1024x64) S64x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S1024x1.size a
  hwx0_4 : ∀ i : grid0.Coords, EltTy.bits .f32 = 32 ∨ (Rect.block (s := S1024x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512x64.size a ≤ S128x2048x64.size a
  hwx0_5 : ∀ i : grid0.Coords, EltTy.bits .f32 = 32 ∨ (Rect.block (s := S128x2048x64) S8x512x64.size (cc0_transform_5 i) (hinb0_5 i)).WholeWords (EltTy.packing .f32)

variable [Facts₀]

def dot_S128x64_S64x512_S128x512_1_0_0_1_n_n : DotDims S128x64 S64x512 S128x512 where
  lhsContracting := [1]
  rhsContracting := [0]
  lhsNonContracting := [0]
  rhsNonContracting := [1]
  lhsBatch := []
  rhsBatch := []
  wf := dot_S128x64_S64x512_S128x512_1_0_0_1_n_n_wf
def dot_S128x64_S64x8_S128x8_1_0_0_1_n_n : DotDims S128x64 S64x8 S128x8 where
  lhsContracting := [1]
  rhsContracting := [0]
  lhsNonContracting := [0]
  rhsNonContracting := [1]
  lhsBatch := []
  rhsBatch := []
  wf := dot_S128x64_S64x8_S128x8_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_arg0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S64x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S64x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26) S8x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x2048 : Shape := ⟨2, ![128, 2048]⟩
abbrev S128x2048x64 : Shape := ⟨3, ![128, 2048, 64]⟩
abbrev S128x64 : Shape := ⟨2, ![128, 64]⟩
abbrev S512x64 : Shape := ⟨2, ![512, 64]⟩
abbrev S512 : Shape := ⟨1, ![512]⟩
abbrev S8x64 : Shape := ⟨2, ![8, 64]⟩
abbrev S8 : Shape := ⟨1, ![8]⟩
abbrev S64x512 : Shape := ⟨2, ![64, 512]⟩
abbrev S128x512 : Shape := ⟨2, ![128, 512]⟩
abbrev S1x512 : Shape := ⟨2, ![1, 512]⟩
abbrev S_ : Shape := ⟨0, ![]⟩
abbrev S128x8x64 : Shape := ⟨3, ![128, 8, 64]⟩
abbrev S64x8 : Shape := ⟨2, ![64, 8]⟩
abbrev S128x8 : Shape := ⟨2, ![128, 8]⟩
abbrev S1x8 : Shape := ⟨2, ![1, 8]⟩
abbrev S128x8x1 : Shape := ⟨3, ![128, 8, 1]⟩
abbrev S128 : Shape := ⟨1, ![128]⟩
abbrev S128x1 : Shape := ⟨2, ![128, 1]⟩
abbrev S128x2048x1 : Shape := ⟨3, ![128, 2048, 1]⟩
abbrev S128x2048x2 : Shape := ⟨3, ![128, 2048, 2]⟩

abbrev nBuf : Space → Nat
  | .hbm => 104
  | .vmem => 0
  | .smem => 0
  | _ => 0

abbrev bufTy : (tb : Table) → Fin (tcTables nBuf tb) → BufTy
  | .hbm, ⟨0, _⟩ => ⟨S128x2048, .i32⟩
  | .hbm, ⟨1, _⟩ => ⟨S128x2048x64, .f32⟩
  | .hbm, ⟨2, _⟩ => ⟨S128x64, .f32⟩
  | .hbm, ⟨3, _⟩ => ⟨S512x64, .f32⟩
  | .hbm, ⟨4, _⟩ => ⟨S512, .f32⟩
  | .hbm, ⟨5, _⟩ => ⟨S512x64, .f32⟩
  | .hbm, ⟨6, _⟩ => ⟨S512, .f32⟩
  | .hbm, ⟨7, _⟩ => ⟨S8x64, .f32⟩
  | .hbm, ⟨8, _⟩ => ⟨S8, .f32⟩
  | .hbm, ⟨9, _⟩ => ⟨S64x512, .f32⟩
  | .hbm, ⟨10, _⟩ => ⟨S128x512, .f32⟩
  | .hbm, ⟨11, _⟩ => ⟨S1x512, .f32⟩
  | .hbm, ⟨12, _⟩ => ⟨S128x512, .f32⟩
  | .hbm, ⟨13, _⟩ => ⟨S128x512, .f32⟩
  | .hbm, ⟨14, _⟩ => ⟨S_, .f32⟩
  | .hbm, ⟨15, _⟩ => ⟨S128x512, .f32⟩
  | .hbm, ⟨16, _⟩ => ⟨S128x512, .f32⟩
  | .hbm, ⟨17, _⟩ => ⟨S128x8x64, .f32⟩
  | .hbm, ⟨18, _⟩ => ⟨S64x512, .f32⟩
  | .hbm, ⟨19, _⟩ => ⟨S128x512, .f32⟩
  | .hbm, ⟨20, _⟩ => ⟨S1x512, .f32⟩
  | .hbm, ⟨21, _⟩ => ⟨S128x512, .f32⟩
  | .hbm, ⟨22, _⟩ => ⟨S128x512, .f32⟩
  | .hbm, ⟨23, _⟩ => ⟨S_, .f32⟩
  | .hbm, ⟨24, _⟩ => ⟨S128x512, .f32⟩
  | .hbm, ⟨25, _⟩ => ⟨S128x512, .f32⟩
  | .hbm, ⟨26, _⟩ => ⟨S128x8x64, .f32⟩
  | .hbm, ⟨27, _⟩ => ⟨S64x8, .f32⟩
  | .hbm, ⟨28, _⟩ => ⟨S128x8, .f32⟩
  | .hbm, ⟨29, _⟩ => ⟨S1x8, .f32⟩
  | .hbm, ⟨30, _⟩ => ⟨S128x8, .f32⟩
  | .hbm, ⟨31, _⟩ => ⟨S128x8, .f32⟩
  | .hbm, ⟨32, _⟩ => ⟨S_, .f32⟩
  | .hbm, ⟨33, _⟩ => ⟨S128x8, .f32⟩
  | .hbm, ⟨34, _⟩ => ⟨S128x8, .f32⟩
  | .hbm, ⟨35, _⟩ => ⟨S128x8x1, .f32⟩
  | .hbm, ⟨36, _⟩ => ⟨S128, .i32⟩
  | .hbm, ⟨37, _⟩ => ⟨S128x1, .i32⟩
  | .hbm, ⟨38, _⟩ => ⟨S_, .i32⟩
  | .hbm, ⟨39, _⟩ => ⟨S128x1, .i32⟩
  | .hbm, ⟨40, _⟩ => ⟨S128x1, .i1⟩
  | .hbm, ⟨41, _⟩ => ⟨S_, .i32⟩
  | .hbm, ⟨42, _⟩ => ⟨S128x1, .i32⟩
  | .hbm, ⟨43, _⟩ => ⟨S128x1, .i32⟩
  | .hbm, ⟨44, _⟩ => ⟨S128x1, .i32⟩
  | .hbm, ⟨45, _⟩ => ⟨S_, .i32⟩
  | .hbm, ⟨46, _⟩ => ⟨S128x2048, .i32⟩
  | .hbm, ⟨47, _⟩ => ⟨S128x2048, .i1⟩
  | .hbm, ⟨48, _⟩ => ⟨S_, .i32⟩
  | .hbm, ⟨49, _⟩ => ⟨S128x2048, .i32⟩
  | .hbm, ⟨50, _⟩ => ⟨S128x2048, .i32⟩
  | .hbm, ⟨51, _⟩ => ⟨S128x2048, .i32⟩
  | .hbm, ⟨52, _⟩ => ⟨S128x2048, .i32⟩
  | .hbm, ⟨53, _⟩ => ⟨S128x2048x1, .i32⟩
  | .hbm, ⟨54, _⟩ => ⟨S128x2048x1, .i32⟩
  | .hbm, ⟨55, _⟩ => ⟨S128x2048x2, .i32⟩
  | .hbm, ⟨56, _⟩ => ⟨S128x2048x64, .f32⟩
  | .hbm, ⟨57, _⟩ => ⟨S_, .i32⟩
  | .hbm, ⟨58, _⟩ => ⟨S128x1, .i32⟩
  | .hbm, ⟨59, _⟩ => ⟨S128x1, .i1⟩
  | .hbm, ⟨60, _⟩ => ⟨S_, .i32⟩
  | .hbm, ⟨61, _⟩ => ⟨S128x1, .i32⟩
  | .hbm, ⟨62, _⟩ => ⟨S128x1, .i32⟩
  | .hbm, ⟨63, _⟩ => ⟨S128x1, .i32⟩
  | .hbm, ⟨64, _⟩ => ⟨S_, .i32⟩
  | .hbm, ⟨65, _⟩ => ⟨S128x2048, .i32⟩
  | .hbm, ⟨66, _⟩ => ⟨S128x2048, .i1⟩
  | .hbm, ⟨67, _⟩ => ⟨S_, .i32⟩
  | .hbm, ⟨68, _⟩ => ⟨S128x2048, .i32⟩
  | .hbm, ⟨69, _⟩ => ⟨S128x2048, .i32⟩
  | .hbm, ⟨70, _⟩ => ⟨S128x2048, .i32⟩
  | .hbm, ⟨71, _⟩ => ⟨S128x2048, .i32⟩
  | .hbm, ⟨72, _⟩ => ⟨S128x2048x1, .i32⟩
  | .hbm, ⟨73, _⟩ => ⟨S128x2048x1, .i32⟩
  | .hbm, ⟨74, _⟩ => ⟨S128x2048x2, .i32⟩
  | .hbm, ⟨75, _⟩ => ⟨S128x2048x64, .f32⟩
  | .hbm, ⟨76, _⟩ => ⟨S_, .i32⟩
  | .hbm, ⟨77, _⟩ => ⟨S128x1, .i32⟩
  | .hbm, ⟨78, _⟩ => ⟨S128x1, .i1⟩
  | .hbm, ⟨79, _⟩ => ⟨S_, .i32⟩
  | .hbm, ⟨80, _⟩ => ⟨S128x1, .i32⟩
  | .hbm, ⟨81, _⟩ => ⟨S128x1, .i32⟩
  | .hbm, ⟨82, _⟩ => ⟨S128x1, .i32⟩
  | .hbm, ⟨83, _⟩ => ⟨S_, .i32⟩
  | .hbm, ⟨84, _⟩ => ⟨S128x2048, .i32⟩
  | .hbm, ⟨85, _⟩ => ⟨S128x2048, .i1⟩
  | .hbm, ⟨86, _⟩ => ⟨S_, .i32⟩
  | .hbm, ⟨87, _⟩ => ⟨S128x2048, .i32⟩
  | .hbm, ⟨88, _⟩ => ⟨S128x2048, .i32⟩
  | .hbm, ⟨89, _⟩ => ⟨S128x2048, .i32⟩
  | .hbm, ⟨90, _⟩ => ⟨S128x2048, .i32⟩
  | .hbm, ⟨91, _⟩ => ⟨S128x2048x1, .i32⟩
  | .hbm, ⟨92, _⟩ => ⟨S128x2048x1, .i32⟩
  | .hbm, ⟨93, _⟩ => ⟨S128x2048x2, .i32⟩
  | .hbm, ⟨94, _⟩ => ⟨S128x2048x1, .f32⟩
  | .hbm, ⟨95, _⟩ => ⟨S128x2048x64, .f32⟩
  | .hbm, ⟨96, _⟩ => ⟨S_, .f32⟩
  | .hbm, ⟨97, _⟩ => ⟨S128x2048, .f32⟩
  | .hbm, ⟨98, _⟩ => ⟨S128x2048x1, .f32⟩
  | .hbm, ⟨99, _⟩ => ⟨S128x2048x1, .f32⟩
  | .hbm, ⟨100, _⟩ => ⟨S128x2048x1, .f32⟩
  | .hbm, ⟨101, _⟩ => ⟨S128x2048x64, .f32⟩
  | .hbm, ⟨102, _⟩ => ⟨S128x2048x64, .f32⟩
  | .hbm, ⟨103, _⟩ => ⟨S128x2048x64, .f32⟩
  | _, _ => ⟨S128x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_cst : Ref sig .tc := ⟨.hbm, 23, rfl⟩
abbrev main_call1_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call2_cst : Ref sig .tc := ⟨.hbm, 32, rfl⟩
abbrev main_call2_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_v24 : Ref sig .tc := ⟨.hbm, 40, rfl⟩
abbrev main_c_0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_1 : Ref sig .tc := ⟨.hbm, 45, rfl⟩
abbrev main_v28 : Ref sig .tc := ⟨.hbm, 46, rfl⟩
abbrev main_v29 : Ref sig .tc := ⟨.hbm, 47, rfl⟩
abbrev main_c_2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_3 : Ref sig .tc := ⟨.hbm, 57, rfl⟩
abbrev main_v38 : Ref sig .tc := ⟨.hbm, 58, rfl⟩
abbrev main_v39 : Ref sig .tc := ⟨.hbm, 59, rfl⟩
abbrev main_c_4 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_5 : Ref sig .tc := ⟨.hbm, 64, rfl⟩
abbrev main_v43 : Ref sig .tc := ⟨.hbm, 65, rfl⟩
abbrev main_v44 : Ref sig .tc := ⟨.hbm, 66, rfl⟩
abbrev main_c_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_7 : Ref sig .tc := ⟨.hbm, 76, rfl⟩
abbrev main_v53 : Ref sig .tc := ⟨.hbm, 77, rfl⟩
abbrev main_v54 : Ref sig .tc := ⟨.hbm, 78, rfl⟩
abbrev main_c_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_9 : Ref sig .tc := ⟨.hbm, 83, rfl⟩
abbrev main_v58 : Ref sig .tc := ⟨.hbm, 84, rfl⟩
abbrev main_v59 : Ref sig .tc := ⟨.hbm, 85, rfl⟩
abbrev main_c_10 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩

abbrev nD : Nat := 1
abbrev τ : Topo := Topo.v7x

variable {F : FTy → Type} [FloatOps F]

class Facts₀ : Prop where
  transposes_S512x64_S64x512_1_0 : S512x64.Transposes [1, 0] S64x512
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  bcast_S_S128x512 : S_.BroadcastsInDim S128x512 (![] : Fin 0 → Fin S128x512.rank)
  shapeCasts_S128x512_S128x8x64 : S128x512.ShapeCasts S128x8x64
  transposes_S8x64_S64x8_1_0 : S8x64.Transposes [1, 0] S64x8
  bcast_S8_S1x8_1 : S8.BroadcastsInDim S1x8 (![1] : Fin 1 → Fin S1x8.rank)
  bcast_S1x8_S128x8_0_1 : S1x8.BroadcastsInDim S128x8 (![0, 1] : Fin 2 → Fin S128x8.rank)
  bcast_S_S128x8 : S_.BroadcastsInDim S128x8 (![] : Fin 0 → Fin S128x8.rank)
  shapeCasts_S128x8_S128x8x1 : S128x8.ShapeCasts S128x8x1
  bcast_S128_S128x1_0 : S128.BroadcastsInDim S128x1 (![0] : Fin 1 → Fin S128x1.rank)
  bcast_S_S128x1 : S_.BroadcastsInDim S128x1 (![] : Fin 0 → Fin S128x1.rank)
  bcast_S_S128x2048 : S_.BroadcastsInDim S128x2048 (![] : Fin 0 → Fin S128x2048.rank)
  bcast_S128x1_S128x2048_0_1 : S128x1.BroadcastsInDim S128x2048 (![0, 1] : Fin 2 → Fin S128x2048.rank)
  bcast_S128x2048_S128x2048x1_0_1 : S128x2048.BroadcastsInDim S128x2048x1 (![0, 1] : Fin 2 → Fin S128x2048x1.rank)
  concatenates_S128x2048x1_S128x2048x1_S128x2048x2_d2 : Shape.Concatenates [S128x2048x1, S128x2048x1] S128x2048x2 2
  reducesTo_S128x2048x64_S128x2048_d2 : S128x2048x64.ReducesTo [2] S128x2048
  h_S_ : 0 < S_.numel
  bcast_S128x2048x1_S128x2048x64_0_1_2 : S128x2048x1.BroadcastsInDim S128x2048x64 (![0, 1, 2] : Fin 3 → Fin S128x2048x64.rank)
  dot_S128x64_S64x512_S128x512_1_0_0_1_n_n_wf : DotDims.WF S128x64 S64x512 S128x512 [1] [0] [0] [1] [] []
  dot_S128x64_S64x8_S128x8_1_0_0_1_n_n_wf : DotDims.WF S128x64 S64x8 S128x8 [1] [0] [0] [1] [] []
  gather_S128x8x64_S128x2048x2_S128x2048x64_2_01_n_n_01_2_1164_wf : GatherDims.WF S128x8x64 S128x2048x2 S128x2048x64 [2] [0, 1] [] [0, 1] [] 2 ![1, 1, 64]
  gather_S128x8x1_S128x2048x2_S128x2048x1_2_01_n_n_01_2_111_wf : GatherDims.WF S128x8x1 S128x2048x2 S128x2048x1 [2] [0, 1] [] [0, 1] [] 2 ![1, 1, 1]

variable [Facts₀]

def dot_S128x64_S64x512_S128x512_1_0_0_1_n_n : DotDims S128x64 S64x512 S128x512 where
  lhsContracting := [1]
  rhsContracting := [0]
  lhsNonContracting := [0]
  rhsNonContracting := [1]
  lhsBatch := []
  rhsBatch := []
  wf := dot_S128x64_S64x512_S128x512_1_0_0_1_n_n_wf
def dot_S128x64_S64x8_S128x8_1_0_0_1_n_n : DotDims S128x64 S64x8 S128x8 where
  lhsContracting := [1]
  rhsContracting := [0]
  lhsNonContracting := [0]
  rhsNonContracting := [1]
  lhsBatch := []
  rhsBatch := []
  wf := dot_S128x64_S64x8_S128x8_1_0_0_1_n_n_wf
def gather_S128x8x64_S128x2048x2_S128x2048x64_2_01_n_n_01_2_1164 : GatherDims S128x8x64 S128x2048x2 S128x2048x64 where
  offsetDims := [2]
  collapsedSliceDims := [0, 1]
  operandBatchingDims := []
  startIndicesBatchingDims := []
  startIndexMap := [0, 1]
  indexVectorDim := 2
  sliceSizes := ![1, 1, 64]
  wf := gather_S128x8x64_S128x2048x2_S128x2048x64_2_01_n_n_01_2_1164_wf
def gather_S128x8x1_S128x2048x2_S128x2048x1_2_01_n_n_01_2_111 : GatherDims S128x8x1 S128x2048x2 S128x2048x1 where
  offsetDims := [2]
  collapsedSliceDims := [0, 1]
  operandBatchingDims := []
  startIndicesBatchingDims := []
  startIndexMap := [0, 1]
  indexVectorDim := 2
  sliceSizes := ![1, 1, 1]
  wf := gather_S128x8x1_S128x2048x2_S128x2048x1_2_01_n_n_01_2_111_wf

class Facts : Prop extends Facts₀ where

variable [Facts]
-- ==== Proof.OneHot.lean ====
/-
  A sum of products against a 0/1 indicator keeps one term, and the words that make the indicator:
  the in-range component word clamped to [0, 7] is itself, the class word of a row is
  eight times the row plus the component, and the widened equality bit read as a signed integer is 1 or 0.
-/
import Idealize.ShloMosaic.PureOps.Ideal
import Idealize.ShloMosaic.PureOps.Ideal.Laws

noncomputable section

namespace Cert.OneHot

open Idealize.ShloMosaic

/-- Summing `b k * f k` over `k`, where `b` is 1 at `c` and 0 elsewhere, leaves `f c`: on the extended reals
    `0 * x = 0` and `1 * x = x` at every `x`, the infinities included, so nothing is asked of `f`. -/
theorem sum_indicator_mul {n : Nat} (c : Fin n) (b f : Fin n → EReal)
    (hb : ∀ k, b k = if k = c then 1 else 0) : ∑ k, b k * f k = f c := by
  rw [Finset.sum_eq_single c]
  · rw [hb c, if_pos rfl, one_mul]
  · intro k _ hk; rw [hb k, if_neg hk, zero_mul]
  · intro h; exact absurd (Finset.mem_univ c) h

/-- A component word already in [0, 8) is left alone by the clamp to [0, 7]. -/
theorem clip_small : ∀ a : Fin 8, IntOp.minsi 7#32 (IntOp.maxsi 0#32 (BitVec.ofNat 32 a.val)) = BitVec.ofNat 32 a.val := by
  decide

theorem clip_of_lt (w : BitVec 32) (h : w.toNat < 8) : IntOp.minsi 7#32 (IntOp.maxsi 0#32 w) = w := by
  have e : w = BitVec.ofNat 32 w.toNat := by
    apply BitVec.eq_of_toNat_eq; rw [BitVec.toNat_ofNat]; omega
  have := clip_small ⟨w.toNat, h⟩
  rw [← e] at this
  exact this

/-- The class word of local row `bl` and component word `w`: eight times the row plus the clamped component. -/
theorem class_word (bl : Fin 8) (w : BitVec 32) (h : w.toNat < 8) :
    IntOp.addi (IntOp.muli (BitVec.ofNat 32 bl.val) 8#32) (IntOp.minsi 7#32 (IntOp.maxsi 0#32 w))
      = BitVec.ofNat 32 (bl.val * 8 + w.toNat) := by
  rw [clip_of_lt w h]
  have hb := bl.isLt
  apply BitVec.eq_of_toNat_eq
  simp only [IntOp.addi, IntOp.muli, BitVec.toNat_add, BitVec.toNat_mul, BitVec.toNat_ofNat]
  omega

/-- Two words below 2³² built from naturals are equal exactly when the naturals are. -/
theorem ofNat_eq_iff (a b : Nat) (ha : a < 2 ^ 32) (hb : b < 2 ^ 32) : BitVec.ofNat 32 a = BitVec.ofNat 32 b ↔ a = b := by
  constructor
  · intro h
    have := congrArg BitVec.toNat h
    simp only [BitVec.toNat_ofNat] at this
    omega
  · intro h; rw [h]

/-- The equality bit of two words, widened to 32 bits and read as a signed integer at the ideal values, is 1 or 0. -/
theorem indicator_word (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · subst h
    have : ((IntOp.cmpi .eq a a).setWidth 32).toInt = 1 := by
      simp [IntOp.cmpi]
    rw [this, if_pos rfl]; norm_num
  · have hne : (a == b) = false := by simp [h]
    have : ((IntOp.cmpi .eq a b).setWidth 32).toInt = 0 := by
      simp [IntOp.cmpi, hne]
    rw [this, if_neg h]; norm_num

end Cert.OneHot

end
-- ==== Proof.Body.lean ====
/-
  The kernel body's arithmetic, read at one element of a block at the ideal values.
  The one-hot of a particle's class (eight times its local row plus its component) against the class axis;
  the two products with it, which keep the class's row of the parameter block; the reduction against the offsets,
  which keeps the class's offset; and so the block's result as the planar flow of the block's rows.
-/
import proofs.«425392_j84765474554410_3_alg».proof.Proof.Gen.KernelIdeal.Skeleton
import proofs.«425392_j84765474554410_3_alg».proof.Proof.OneHot
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The class of the particle at local row `bl`, position `p`: eight times the row plus its component word. -/
def cls (P1 : Vec Ideal S8x512 .i32) (bl : Fin 8) (p : Fin 512) : Nat := bl.val * 8 + (P1 (ix2 bl p)).toNat

theorem cls_lt (P1 : Vec Ideal S8x512 .i32) (hP : ∀ j, (P1 j).toNat < 8) (bl : Fin 8) (p : Fin 512) : cls P1 bl p < 64 := by
  have := hP (ix2 bl p); have := bl.isLt; unfold cls; omega

/-- The class word the body computes at `(bl, p)`, broadcast along the class axis. -/
theorem class_at (P1 : Vec Ideal S8x512 .i32) (hP : ∀ j, (P1 j).toNat < 8) (bl : Fin 8) (p : Fin 512) (k : Fin 64) :
    broadcastTo S8x512x64 (shapeCast S8x512x1 (addi (muli (iota .tc S8x512 32 [0] iota_S8x512_d0_w32) (broadcast S8x512 8#32))
        (minsi (broadcast S8x512 7#32) (maxsi (broadcast S8x512 0#32) P1))) shapeCasts_S8x512_S8x512x1) broadcasts_S8x512x1_S8x512x64 (ix3 bl p k)
      = BitVec.ofNat 32 (cls P1 bl p) := by
  refine (broadcastTo_apply _ _ (ix3 bl p k) (ix3 bl p (0 : Fin 1)) (fun a => ?_)).trans ?_
  · match a with
    | ⟨0, _⟩ => show bl.val = if (8 : Nat) = 1 then 0 else bl.val; rw [if_neg (by decide)]
    | ⟨1, _⟩ => show p.val = if (512 : Nat) = 1 then 0 else p.val; rw [if_neg (by decide)]
    | ⟨2, _⟩ => show 0 = if (1 : Nat) = 1 then 0 else k.val; rw [if_pos rfl]
  refine (shapeCast_apply _ _ (ix3 bl p (0 : Fin 1)) (ix2 bl p) ?_).trans ?_
  · rw [Shape.rowMajor_val_two, Shape.rowMajor_val_three]
    show bl.val * 512 + p.val = (bl.val * 512 + p.val) * 1 + 0
    omega
  show IntOp.addi (IntOp.muli (iota .tc S8x512 32 [0] iota_S8x512_d0_w32 (ix2 bl p)) 8#32)
      (IntOp.minsi 7#32 (IntOp.maxsi 0#32 (P1 (ix2 bl p)))) = _
  rw [iota_single_apply]
  exact OneHot.class_word bl _ (hP _)

/-- The class as an index of the class axis. -/
def clsF (P1 : Vec Ideal S8x512 .i32) (hP : ∀ j, (P1 j).toNat < 8) (bl : Fin 8) (p : Fin 512) : Fin 64 := ⟨cls P1 bl p, cls_lt P1 hP bl p⟩

/-- The one-hot at `(bl, p, k)`: 1 where `k` is the particle's class, 0 elsewhere. -/
theorem onehot_at (P1 : Vec Ideal S8x512 .i32) (hP : ∀ j, (P1 j).toNat < 8) (bl : Fin 8) (p : Fin 512) (k : Fin 64) :
    k0_pay2 (F := Ideal) P1 (ix3 bl p k) = if k = clsF P1 hP bl p then 1 else 0 := by
  unfold k0_pay2
  refine (OneHot.indicator_word _ _).trans ?_
  rw [class_at P1 hP bl p k, iota_single_apply]
  have hc := cls_lt P1 hP bl p
  have hk := k.isLt
  show (if BitVec.ofNat 32 (cls P1 bl p) = BitVec.ofNat 32 k.val then (1 : EReal) else 0) = _
  by_cases h : k = clsF P1 hP bl p
  · rw [if_pos h, if_pos (by rw [h]; rfl)]
  · rw [if_neg h, if_neg (show ¬ BitVec.ofNat 32 (cls P1 bl p) = BitVec.ofNat 32 k.val from
      fun e => h (Fin.ext ((OneHot.ofNat_eq_iff _ _ (by omega) (by omega)).mp e).symm))]

/-! ## The product with the one-hot keeps the class's row -/

theorem lhs_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem lhs_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
theorem rhs_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
theorem rhs_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- Row `bl * 512 + p` of the flattened one-hot is the one-hot of particle `(bl, p)` (a change of format is the identity). -/
theorem onehot_flat_at (P1 : Vec Ideal S8x512 .i32) (hP : ∀ j, (P1 j).toNat < 8) (bl : Fin 8) (p : Fin 512) (k : Fin 64)
    (r : Fin 4096) (hr : r.val = bl.val * 512 + p.val) :
    k0_pay3 (F := Ideal) P1 (ix2 r k) = if k = clsF P1 hP bl p then 1 else 0 := by
  unfold k0_pay3
  refine (shapeCast_apply _ _ (ix2 r k) (ix3 bl p k) ?_).trans ?_
  · rw [Shape.rowMajor_val_two, Shape.rowMajor_val_three]
    show (bl.val * 512 + p.val) * 64 + k.val = r.val * 64 + k.val
    rw [hr]
  exact onehot_at P1 hP bl p k

/-- The product of the flattened one-hot with a 64-row block, cast back to particles: at `(bl, p, d)` it is the block's
    entry in the row of the particle's class. -/
theorem select_row (P1 : Vec Ideal S8x512 .i32) (hP : ∀ j, (P1 j).toNat < 8) (R : FVec Ideal S64x64 .bf16)
    (bl : Fin 8) (p : Fin 512) (d : Fin 64) :
    shapeCast S8x512x64 (matmul dot_S4096x64_S64x64_S4096x64_1_0_0_1_n_n none (k0_pay3 (F := Ideal) P1)
        (shapeCast S64x64 R shapeCasts_S64x64_S64x64) (constant S4096x64 .f32 0x00000000#32)) shapeCasts_S4096x64_S8x512x64 (ix3 bl p d)
      = R (ix2 (clsF P1 hP bl p) d) := by
  have hb := bl.isLt; have hp := p.isLt
  refine (shapeCast_apply _ _ (ix3 bl p d) (ix2 (⟨bl.val * 512 + p.val, by omega⟩ : Fin 4096) d) ?_).trans ?_
  · rw [Shape.rowMajor_val_two, Shape.rowMajor_val_three]
    rfl
  rw [shapeCast_self]
  simp only [matmul]
  rw [Ideal.matmul_constant_zero_apply, ← Equiv.sum_comp (contrEquiv1 dot_S4096x64_S64x64_S4096x64_1_0_0_1_n_n 64 rfl rfl).symm]
  refine (Finset.sum_congr rfl fun k _ => ?_).trans
    (OneHot.sum_indicator_mul (clsF P1 hP bl p) (fun k => if k = clsF P1 hP bl p then 1 else 0) (fun k => R (ix2 k d)) (fun k => rfl))
  have hk := contrEquiv1_symm_val dot_S4096x64_S64x64_S4096x64_1_0_0_1_n_n 64 rfl rfl k
  have el : dot_S4096x64_S64x64_S4096x64_1_0_0_1_n_n.lhsIdx (ix2 (⟨bl.val * 512 + p.val, by omega⟩ : Fin 4096) d)
      ((contrEquiv1 dot_S4096x64_S64x64_S4096x64_1_0_0_1_n_n 64 rfl rfl).symm k) = ix2 (⟨bl.val * 512 + p.val, by omega⟩ : Fin 4096) k :=
    funext fun a => Fin.ext (by
      match a with
      | ⟨0, _⟩ => exact lhs_0 _ _
      | ⟨1, _⟩ => exact (lhs_1 _ _).trans hk)
  have er : dot_S4096x64_S64x64_S4096x64_1_0_0_1_n_n.rhsIdx (ix2 (⟨bl.val * 512 + p.val, by omega⟩ : Fin 4096) d)
      ((contrEquiv1 dot_S4096x64_S64x64_S4096x64_1_0_0_1_n_n 64 rfl rfl).symm k) = ix2 k d :=
    funext fun a => Fin.ext (by
      match a with
      | ⟨0, _⟩ => exact (rhs_0 _ _).trans hk
      | ⟨1, _⟩ => exact rhs_1 _ _)
  rw [el, er, onehot_flat_at P1 hP bl p k _ rfl]

/-! ## The block's result -/

/-- The gathered direction rows: at `(bl, p, d)` the entry of the class's row. -/
theorem rows_at (P1 : Vec Ideal S8x512 .i32) (hP : ∀ j, (P1 j).toNat < 8) (P2 : Vec Ideal S64x64 .bf16)
    (bl : Fin 8) (p : Fin 512) (d : Fin 64) :
    k0_pay4 (F := Ideal) P1 P2 (ix3 bl p d) = P2 (ix2 (clsF P1 hP bl p) d) := by
  unfold k0_pay4
  exact select_row P1 hP P2 bl p d

/-- The offsets, a 64-entry column, laid along the class axis of a block: at `(bl, p, k)` the offset of class `k`. -/
theorem offsets_at (P4 : Vec Ideal S64x1 .f32) (bl : Fin 8) (p : Fin 512) (k : Fin 64) :
    broadcastTo S8x512x64 (shapeCast S1x1x64 (shapeCast S64 (shapeCast S64x1 P4 shapeCasts_S64x1_S64x1) shapeCasts_S64x1_S64)
        shapeCasts_S64_S1x1x64) broadcasts_S1x1x64_S8x512x64 (ix3 bl p k) = P4 (ix2 k (0 : Fin 1)) := by
  refine (broadcastTo_apply _ _ (ix3 bl p k) (ix3 (0 : Fin 1) (0 : Fin 1) k) (fun a => ?_)).trans ?_
  · match a with
    | ⟨0, _⟩ => show 0 = if (1 : Nat) = 1 then 0 else bl.val; rw [if_pos rfl]
    | ⟨1, _⟩ => show 0 = if (1 : Nat) = 1 then 0 else p.val; rw [if_pos rfl]
    | ⟨2, _⟩ => show k.val = if (64 : Nat) = 1 then 0 else k.val; rw [if_neg (by decide)]
  refine (shapeCast_apply _ _ (ix3 (0 : Fin 1) (0 : Fin 1) k) (ix1 k) ?_).trans ?_
  · rw [Shape.rowMajor_val_one, Shape.rowMajor_val_three]
    show k.val = (0 * 1 + 0) * 64 + k.val
    omega
  refine (shapeCast_apply _ _ (ix1 k) (ix2 k (0 : Fin 1)) ?_).trans ?_
  · rw [Shape.rowMajor_val_one, Shape.rowMajor_val_two]
    show k.val * 1 + 0 = k.val
    omega
  rw [shapeCast_self]

/-- The index a reduction over the last axis of a block reads at `(bl, p)`, coordinate `k`. -/
theorem lift_at (bl : Fin 8) (p : Fin 512) (k : Fin 64) : reduces_S8x512x64_S8x512.lift (ix2 bl p) k = ix3 bl p k :=
  funext fun a => Fin.ext (by match a with | ⟨0, _⟩ => rfl | ⟨1, _⟩ => rfl | ⟨2, _⟩ => rfl)

/-- The row-major position of `(bl, p)` is that of `(bl, p, 0)`. -/
theorem pos_col (bl : Fin 8) (p : Fin 512) : (S8x512.rowMajor (ix2 bl p)).val = (S8x512x1.rowMajor (ix3 bl p (0 : Fin 1))).val := by
  rw [Shape.rowMajor_val_two, Shape.rowMajor_val_three]
  show bl.val * 512 + p.val = (bl.val * 512 + p.val) * 1 + 0
  omega

/-- The squashed pre-activation at particle `(bl, p)`: tanh of the row of the state against the class's weight row, plus
    the class's offset. -/
theorem tanh_at (P1 : Vec Ideal S8x512 .i32) (hP : ∀ j, (P1 j).toNat < 8) (P0 : Vec Ideal S8x512x64 .f32)
    (P3 : Vec Ideal S64x64 .bf16) (P4 : Vec Ideal S64x1 .f32) (bl : Fin 8) (p : Fin 512) :
    k0_pay5 (F := Ideal) P1 P0 P3 P4 (ix3 bl p (0 : Fin 1))
      = Ideal.tanh ((∑ d : Fin 64, P0 (ix3 bl p d) * P3 (ix2 (clsF P1 hP bl p) d)) + P4 (ix2 (clsF P1 hP bl p) (0 : Fin 1))) := by
  unfold k0_pay5
  refine congrArg Ideal.tanh ?_
  refine congrArg₂ (· + ·) ?_ ?_
  · refine (shapeCast_apply _ _ (ix3 bl p (0 : Fin 1)) (ix2 bl p) (pos_col bl p)).trans ?_
    refine (Ideal.multiReduction_add_single _ 0x00000000#32 reduces_S8x512x64_S8x512 (.inl rfl) rfl (ix2 bl p)).trans ?_
    refine Finset.sum_congr rfl fun (k : Fin 64) _ => ?_
    rw [lift_at bl p k]
    exact congrArg (P0 (ix3 bl p k) * ·) (select_row P1 hP P3 bl p k)
  · refine (shapeCast_apply _ _ (ix3 bl p (0 : Fin 1)) (ix2 bl p) (pos_col bl p)).trans ?_
    refine (Ideal.multiReduction_add_single _ 0x00000000#32 reduces_S8x512x64_S8x512 (.inl rfl) rfl (ix2 bl p)).trans ?_
    refine (Finset.sum_congr rfl fun (k : Fin 64) _ => ?_).trans
      (OneHot.sum_indicator_mul (clsF P1 hP bl p) (fun k => if k = clsF P1 hP bl p then 1 else 0) (fun k => P4 (ix2 k (0 : Fin 1))) (fun k => rfl))
    rw [lift_at bl p k]
    exact congrArg₂ (· * ·) (onehot_at P1 hP bl p k) (offsets_at P4 bl p k)

/-- THE BLOCK: what the body stores at `(bl, p, d)` is the planar flow of the block's row `(bl, p)` with the
    parameter rows of the particle's class. -/
theorem stored_at (P0 : Vec Ideal S8x512x64 .f32) (P1 : Vec Ideal S8x512 .i32) (hP : ∀ j, (P1 j).toNat < 8)
    (P2 P3 : Vec Ideal S64x64 .bf16) (P4 : Vec Ideal S64x1 .f32) (bl : Fin 8) (p : Fin 512) (d : Fin 64) :
    k0_pay1 (F := Ideal) P0 (k0_pay4 P1 P2) (k0_pay5 P1 P0 P3 P4) (ix3 bl p d)
      = P0 (ix3 bl p d) + P2 (ix2 (clsF P1 hP bl p) d)
          * Ideal.tanh ((∑ k : Fin 64, P0 (ix3 bl p k) * P3 (ix2 (clsF P1 hP bl p) k)) + P4 (ix2 (clsF P1 hP bl p) (0 : Fin 1))) := by
  unfold k0_pay1
  refine congrArg₂ (· + ·) rfl ?_
  refine congrArg₂ (· * ·) (rows_at P1 hP P2 bl p d) ?_
  refine (broadcastTo_apply _ _ (ix3 bl p d) (ix3 bl p (0 : Fin 1)) (fun a => ?_)).trans (tanh_at P1 hP P0 P3 P4 bl p)
  match a with
  | ⟨0, _⟩ => show bl.val = if (8 : Nat) = 1 then 0 else bl.val; rw [if_neg (by decide)]
  | ⟨1, _⟩ => show p.val = if (512 : Nat) = 1 then 0 else p.val; rw [if_neg (by decide)]
  | ⟨2, _⟩ => show 0 = if (1 : Nat) = 1 then 0 else d.val; rw [if_pos rfl]

end Cert.KernelIdeal.Body

end
-- ==== Proof.Spec.lean ====
/-
  The planar flow with a per-particle mixture component, as ONE function of the arrays, index by index:
  particle (b, p) carries the component c = m[b, p]; its row of the state moves by
  u[b, c, ·] · tanh(⟨s[b, p, ·], w[b, c, ·]⟩ + β[b, c]).
  Both programs are shown to compute this function (the kernel through a one-hot product, the reference through a
  gather), over the same parameter arrays w, u, β.
-/
import Idealize.ShloMosaic.PureOps.Ideal
import Idealize.ShloMosaic.Lib.ValueIdx

noncomputable section

namespace Cert.Planar

open Idealize.ShloMosaic Idealize.ShloMosaic.ValueIdx

/-- The component a word names: the word itself when it is below 8 (the last component otherwise). -/
def comp (w : BitVec 32) : Fin 8 := ⟨min w.toNat 7, by omega⟩

theorem comp_val (w : BitVec 32) (h : w.toNat < 8) : (comp w).val = w.toNat := by
  show min w.toNat 7 = w.toNat
  omega

/-- The flow at particle `(b, p)`, coordinate `d`. -/
def flowAt (mm : (⟨2, ![128, 2048]⟩ : Shape).Idx → BitVec 32) (s : (⟨3, ![128, 2048, 64]⟩ : Shape).Idx → EReal)
    (W U : (⟨3, ![128, 8, 64]⟩ : Shape).Idx → EReal) (Bf : (⟨3, ![128, 8, 1]⟩ : Shape).Idx → EReal)
    (b : Fin 128) (p : Fin 2048) (d : Fin 64) : EReal :=
  s (ix3 b p d) + U (ix3 b (comp (mm (ix2 b p))) d)
    * Ideal.tanh ((∑ k : Fin 64, s (ix3 b p k) * W (ix3 b (comp (mm (ix2 b p))) k))
        + Bf (ix3 b (comp (mm (ix2 b p))) (0 : Fin 1)))

/-- The whole result array. -/
def flow (mm : (⟨2, ![128, 2048]⟩ : Shape).Idx → BitVec 32) (s : (⟨3, ![128, 2048, 64]⟩ : Shape).Idx → EReal)
    (W U : (⟨3, ![128, 8, 64]⟩ : Shape).Idx → EReal) (Bf : (⟨3, ![128, 8, 1]⟩ : Shape).Idx → EReal) :
    (⟨3, ![128, 2048, 64]⟩ : Shape).Idx → EReal :=
  fun i => flowAt mm s W U Bf (i 0) (i 1) (i 2)

theorem flow_apply (mm : (⟨2, ![128, 2048]⟩ : Shape).Idx → BitVec 32) (s : (⟨3, ![128, 2048, 64]⟩ : Shape).Idx → EReal)
    (W U : (⟨3, ![128, 8, 64]⟩ : Shape).Idx → EReal) (Bf : (⟨3, ![128, 8, 1]⟩ : Shape).Idx → EReal)
    (b : Fin 128) (p : Fin 2048) (d : Fin 64) :
    flow mm s W U Bf (ix3 b p d) = flowAt mm s W U Bf b p d := rfl

end Cert.Planar

end
-- ==== Proof.KernelValue.lean ====
/-
  The kernel's result array as ONE function of the argument arrays.
  The host operations before the launch build three parameter arrays from the observation: the weight rows
  `w = relu (o · W1ᵀ + b1)` and the direction rows `u = relu (o · W2ᵀ + b2)`, regrouped `[128, 8, 64]`, and the offsets
  `β = relu (o · W3ᵀ + b3)`, regrouped `[128, 8, 1]`; the kernel stages them flattened over (batch row, component).
  Grid point `(i, j)` reads the component words and the state rows of batch rows `8i … 8i + 7`, positions `512j … 512j + 511`,
  and the 64 flattened parameter rows `64i … 64i + 63`: row `8 bl + c` of that block is the parameters of batch row
  `8i + bl`, component `c`. So the block the point writes back is the planar flow restricted to its rows, and the
  blocks tile the array.
-/
import proofs.«425392_j84765474554410_3_alg».proof.Proof.Gen.KernelIdeal.Value
import proofs.«425392_j84765474554410_3_alg».proof.Proof.Body
import proofs.«425392_j84765474554410_3_alg».proof.Proof.Spec
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-! ## The parameter arrays the host operations build -/

section Terms
variable {F : FTy → Type} [FloatOps F]

/-- `relu (o · Wᵀ + bias)` for a 512-row weight matrix, regrouped `[128, 8, 64]`. -/
def rows (x2 : FVec F S128x64 .f32) (x3 : FVec F S512x64 .f32) (x4 : FVec F S512 .f32) : FVec F S128x8x64 .f32 :=
  shapeCast S128x8x64
    (maximumf
      (addf (Host.dotGeneral dot_S128x64_S64x512_S128x512_1_0_0_1_n_n none x2 (transpose S64x512 [1, 0] x3 transposes_S512x64_S64x512_1_0))
        (broadcastInDim S128x512 ![0, 1] bcast_S1x512_S128x512_0_1 (broadcastInDim S1x512 ![1] bcast_S512_S1x512_1 x4)))
      (broadcastInDim S128x512 ![] bcast_S_S128x512 (constant S_ .f32 0x00000000#32)))
    shapeCasts_S128x512_S128x8x64

/-- `relu (o · W3ᵀ + b3)`, regrouped `[128, 8, 1]`. -/
def offs (x2 : FVec F S128x64 .f32) (x7 : FVec F S8x64 .f32) (x8 : FVec F S8 .f32) : FVec F S128x8x1 .f32 :=
  shapeCast S128x8x1
    (maximumf
      (addf (Host.dotGeneral dot_S128x64_S64x8_S128x8_1_0_0_1_n_n none x2 (transpose S64x8 [1, 0] x7 transposes_S8x64_S64x8_1_0))
        (broadcastInDim S128x8 ![0, 1] bcast_S1x8_S128x8_0_1 (broadcastInDim S1x8 ![1] bcast_S8_S1x8_1 x8)))
      (broadcastInDim S128x8 ![] bcast_S_S128x8 (constant S_ .f32 0x00000000#32)))
    shapeCasts_S128x8_S128x8x1

end Terms

variable (m : (ℓ : Loc nD τ sig) → Buf (Elt Ideal) ℓ) (ρ : Dev nD → PrngReg)

set_option maxHeartbeats 4000000 in
/-- The weight rows as the launch finds them: flattened over (batch row, component), in the staged format. -/
theorem V_weights (c : Dev nD) : (V m c main_v22 : S1024x64.Idx → EReal)
    = truncf .bf16 (shapeCast S1024x64 (rows (F := Ideal) (m ((c : Thread nD τ).loc main_arg2)) (m ((c : Thread nD τ).loc main_arg3)) (m ((c : Thread nD τ).loc main_arg4))) shapeCasts_S128x8x64_S1024x64) bitsLt_bf16_f32 := by
  dsimp only [V]
  simp only [hostOps0, hostOps0_1, hostOps0_2, hostOps0_3, hostOps0_4, hostOps0_5, hostOps0_6, List.flatten_cons, List.flatten_nil, List.append_nil, List.cons_append, List.nil_append]
  after_results
  rfl

set_option maxHeartbeats 4000000 in
/-- The direction rows as the launch finds them. -/
theorem V_directions (c : Dev nD) : (V m c main_v24 : S1024x64.Idx → EReal)
    = truncf .bf16 (shapeCast S1024x64 (rows (F := Ideal) (m ((c : Thread nD τ).loc main_arg2)) (m ((c : Thread nD τ).loc main_arg5)) (m ((c : Thread nD τ).loc main_arg6))) shapeCasts_S128x8x64_S1024x64) bitsLt_bf16_f32 := by
  dsimp only [V]
  simp only [hostOps0, hostOps0_1, hostOps0_2, hostOps0_3, hostOps0_4, hostOps0_5, hostOps0_6, List.flatten_cons, List.flatten_nil, List.append_nil, List.cons_append, List.nil_append]
  after_results
  rfl

set_option maxHeartbeats 4000000 in
/-- The offsets as the launch finds them. -/
theorem V_offsets (c : Dev nD) : (V m c main_v25 : S1024x1.Idx → EReal)
    = shapeCast S1024x1 (offs (F := Ideal) (m ((c : Thread nD τ).loc main_arg2)) (m ((c : Thread nD τ).loc main_arg7)) (m ((c : Thread nD τ).loc main_arg8))) shapeCasts_S128x8x1_S1024x1 := by
  dsimp only [V]
  simp only [hostOps0, hostOps0_1, hostOps0_2, hostOps0_3, hostOps0_4, hostOps0_5, hostOps0_6, List.flatten_cons, List.flatten_nil, List.append_nil, List.cons_append, List.nil_append]
  after_results
  rfl

/-! ## Staged rows and the arrays they come from -/

/-- Row `8 b + c` of the flattened, staged rows is row `(b, c)` of the parameter array (a change of format is the identity). -/
theorem flat_rows (X : FVec Ideal S128x8x64 .f32) (r : Fin 1024) (b : Fin 128) (c : Fin 8) (k : Fin 64) (hr : r.val = b.val * 8 + c.val) :
    truncf .bf16 (shapeCast S1024x64 X shapeCasts_S128x8x64_S1024x64) bitsLt_bf16_f32 (ix2 r k) = X (ix3 b c k) := by
  show shapeCast S1024x64 X shapeCasts_S128x8x64_S1024x64 (ix2 r k) = X (ix3 b c k)
  refine shapeCast_apply _ _ (ix2 r k) (ix3 b c k) ?_
  rw [Shape.rowMajor_val_two, Shape.rowMajor_val_three]
  show (b.val * 8 + c.val) * 64 + k.val = r.val * 64 + k.val
  rw [hr]

/-- The same for the offsets. -/
theorem flat_offs (Y : FVec Ideal S128x8x1 .f32) (r : Fin 1024) (b : Fin 128) (c : Fin 8) (hr : r.val = b.val * 8 + c.val) :
    shapeCast S1024x1 Y shapeCasts_S128x8x1_S1024x1 (ix2 r (0 : Fin 1)) = Y (ix3 b c (0 : Fin 1)) := by
  refine shapeCast_apply _ _ (ix2 r (0 : Fin 1)) (ix3 b c (0 : Fin 1)) ?_
  rw [Shape.rowMajor_val_two, Shape.rowMajor_val_three]
  show (b.val * 8 + c.val) * 1 + 0 = r.val * 1 + 0
  rw [hr]

/-- ONE POINT, over variables: blocks `P` that are the rows of grid point `(I, J)` of the arrays — the state rows and
    component words of batch rows `8 I + bl`, positions `512 J + p`, and the 64 staged parameter rows from `64 I` — give,
    through the body's arithmetic, the planar flow of the arrays at `(8 I + bl, 512 J + p, d)`. -/
theorem point_eq (mm : S128x2048.Idx → BitVec 32) (s : S128x2048x64.Idx → EReal)
    (W U : FVec Ideal S128x8x64 .f32) (B : FVec Ideal S128x8x1 .f32)
    (I J : Nat) (hI : I ≤ 15) (hJ : J ≤ 3) (bl : Fin 8) (p : Fin 512) (d : Fin 64)
    (P0 : Vec Ideal S8x512x64 .f32) (P1 : Vec Ideal S8x512 .i32) (P2 P3 : Vec Ideal S64x64 .bf16) (P4 : Vec Ideal S64x1 .f32)
    (hP : ∀ j, (P1 j).toNat < 8)
    (h0 : ∀ k : Fin 64, P0 (ix3 bl p k) = s (ix3 (⟨I * 8 + bl.val, by omega⟩ : Fin 128) (⟨J * 512 + p.val, by omega⟩ : Fin 2048) k))
    (h1 : P1 (ix2 bl p) = mm (ix2 (⟨I * 8 + bl.val, by omega⟩ : Fin 128) (⟨J * 512 + p.val, by omega⟩ : Fin 2048)))
    (h2 : ∀ (r : Fin 64) (k : Fin 64), P2 (ix2 r k)
      = truncf .bf16 (shapeCast S1024x64 U shapeCasts_S128x8x64_S1024x64) bitsLt_bf16_f32 (ix2 (⟨I * 64 + r.val, by omega⟩ : Fin 1024) k))
    (h3 : ∀ (r : Fin 64) (k : Fin 64), P3 (ix2 r k)
      = truncf .bf16 (shapeCast S1024x64 W shapeCasts_S128x8x64_S1024x64) bitsLt_bf16_f32 (ix2 (⟨I * 64 + r.val, by omega⟩ : Fin 1024) k))
    (h4 : ∀ r : Fin 64, P4 (ix2 r (0 : Fin 1))
      = shapeCast S1024x1 B shapeCasts_S128x8x1_S1024x1 (ix2 (⟨I * 64 + r.val, by omega⟩ : Fin 1024) (0 : Fin 1))) :
    P0 (ix3 bl p d) + P2 (ix2 (Body.clsF P1 hP bl p) d)
        * Ideal.tanh ((∑ k : Fin 64, P0 (ix3 bl p k) * P3 (ix2 (Body.clsF P1 hP bl p) k)) + P4 (ix2 (Body.clsF P1 hP bl p) (0 : Fin 1)))
      = Planar.flowAt mm s W U B (⟨I * 8 + bl.val, by omega⟩ : Fin 128) (⟨J * 512 + p.val, by omega⟩ : Fin 2048) d := by
  have hb := bl.isLt
  have hc : (Planar.comp (mm (ix2 (⟨I * 8 + bl.val, by omega⟩ : Fin 128) (⟨J * 512 + p.val, by omega⟩ : Fin 2048)))).val = (P1 (ix2 bl p)).toNat := by
    rw [← h1]; exact Planar.comp_val _ (hP _)
  have hr : (⟨I * 64 + (Body.clsF P1 hP bl p).val, by have := (Body.clsF P1 hP bl p).isLt; omega⟩ : Fin 1024).val
      = (⟨I * 8 + bl.val, by omega⟩ : Fin 128).val * 8
        + (Planar.comp (mm (ix2 (⟨I * 8 + bl.val, by omega⟩ : Fin 128) (⟨J * 512 + p.val, by omega⟩ : Fin 2048)))).val := by
    rw [hc]
    show I * 64 + (bl.val * 8 + (P1 (ix2 bl p)).toNat) = (I * 8 + bl.val) * 8 + (P1 (ix2 bl p)).toNat
    omega
  have hs : (∑ k : Fin 64, P0 (ix3 bl p k) * P3 (ix2 (Body.clsF P1 hP bl p) k))
      = ∑ k : Fin 64, s (ix3 (⟨I * 8 + bl.val, by omega⟩ : Fin 128) (⟨J * 512 + p.val, by omega⟩ : Fin 2048) k)
          * W (ix3 (⟨I * 8 + bl.val, by omega⟩ : Fin 128)
              (Planar.comp (mm (ix2 (⟨I * 8 + bl.val, by omega⟩ : Fin 128) (⟨J * 512 + p.val, by omega⟩ : Fin 2048)))) k) :=
    Finset.sum_congr rfl fun k _ => by rw [h0 k, h3 _ k, flat_rows W _ _ _ k hr]
  unfold Planar.flowAt
  rw [hs, h0 d, h2 _ d, flat_rows U _ _ _ d hr, h4, flat_offs B _ _ _ hr]

/-! ## The grid: which rows each point's blocks are -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 64 grid points: every input window moves with the output window on the
    batch-row axis, the component words and the state also on the position axis, and nothing moves on a last axis. -/
theorem idx_facts : ∀ t : Fin cfg0.N,
    win0_0.index t (0 : Fin 2) = win0_5.index t (0 : Fin 3) ∧ win0_0.index t (1 : Fin 2) = win0_5.index t (1 : Fin 3)
    ∧ win0_1.index t (0 : Fin 3) = win0_5.index t (0 : Fin 3) ∧ win0_1.index t (1 : Fin 3) = win0_5.index t (1 : Fin 3)
    ∧ win0_1.index t (2 : Fin 3) = 0
    ∧ win0_2.index t (0 : Fin 2) = win0_5.index t (0 : Fin 3) ∧ win0_2.index t (1 : Fin 2) = 0
    ∧ win0_3.index t (0 : Fin 2) = win0_5.index t (0 : Fin 3) ∧ win0_3.index t (1 : Fin 2) = 0
    ∧ win0_4.index t (0 : Fin 2) = win0_5.index t (0 : Fin 3) ∧ win0_4.index t (1 : Fin 2) = 0
    ∧ win0_5.index t (2 : Fin 3) = 0 ∧ win0_5.index t (0 : Fin 3) ≤ 15 ∧ win0_5.index t (1 : Fin 3) ≤ 3 :=
  (by decide +kernel : ∀ t : Fin grid0.N, _)

/-- Every block of the output is some point's. -/
theorem idx_onto : ∀ (q0 : Fin 16) (q1 : Fin 4), ∃ t : Fin cfg0.N, win0_5.index t = ![q0.val, q1.val, 0] :=
  (by decide +kernel : ∀ (q0 : Fin 16) (q1 : Fin 4), ∃ t : Fin grid0.N, win0_5.index t = ![q0.val, q1.val, 0])

/-! ## What a point writes back, the cover, the final array -/

theorem V_words (c : Dev nD) : (V m c main_arg0 : S128x2048.Idx → BitVec 32) = m ((c : Thread nD τ).loc main_arg0) := V_main_arg0 m c
theorem V_state (c : Dev nD) : (V m c main_arg1 : S128x2048x64.Idx → EReal) = m ((c : Thread nD τ).loc main_arg1) := V_main_arg1 m c

/-- A block of the output read off an array is the array under the block's indices. -/
theorem read_out (G : S128x2048x64.Idx → EReal) (t : Fin cfg0.N) (y : S8x512x64.Idx) :
    ((cfg0.win 5).blk t).view.read (Elt Ideal) G y = G (((cfg0.win 5).blk t).view.emb y) := rfl

/-- WHAT POINT `t` WRITES BACK is block `t` of the planar flow of the arrays as the launch finds them, when every
    component word is in `[0, 8)`. -/
theorem flushed_eq (c : Dev nD) (hm : ∀ i : S128x2048.Idx, ((V m c main_arg0 : S128x2048.Idx → BitVec 32) i).toNat < 8) (t : Fin cfg0.N) :
    (dats m 0 c).flushed 5 t = ((cfg0.win 5).blk t).view.read (Elt Ideal)
      (Planar.flow (V m c main_arg0) (V m c main_arg1)
        (rows (F := Ideal) (m ((c : Thread nD τ).loc main_arg2)) (m ((c : Thread nD τ).loc main_arg3)) (m ((c : Thread nD τ).loc main_arg4)))
        (rows (F := Ideal) (m ((c : Thread nD τ).loc main_arg2)) (m ((c : Thread nD τ).loc main_arg5)) (m ((c : Thread nD τ).loc main_arg6)))
        (offs (F := Ideal) (m ((c : Thread nD τ).loc main_arg2)) (m ((c : Thread nD τ).loc main_arg7)) (m ((c : Thread nD τ).loc main_arg8)))) := by
  rw [Value.flushed5]
  unfold out0_5
  rw [View.canon_unit_zero hz3]
  simp only [View.ld_unit_zero (S := S8x512x64) hz3, View.ld_unit_zero (S := S8x512) hz2, View.ld_unit_zero (S := S64x64) hz2,
    View.ld_unit_zero (S := S64x1) hz2]
  obtain ⟨e00, e01, e10, e11, e12, e20, e21, e30, e31, e40, e41, e52, hI, hJ⟩ := idx_facts t
  funext y
  obtain ⟨bl, p, d, rfl⟩ : ∃ (bl : Fin 8) (p : Fin 512) (d : Fin 64), y = ix3 bl p d := ⟨y 0, y 1, y 2, eq_ix3 y⟩
  have hb := bl.isLt; have hp := p.isLt; have hd := d.isLt
  have hP : ∀ j, (iblk m c 0 t j).toNat < 8 := fun j => hm _
  refine (Body.stored_at (iblk m c 1 t) (iblk m c 0 t) hP (iblk m c 3 t) (iblk m c 2 t) (iblk m c 4 t) bl p d).trans ?_
  refine (point_eq (V m c main_arg0) (V m c main_arg1)
    (rows (F := Ideal) (m ((c : Thread nD τ).loc main_arg2)) (m ((c : Thread nD τ).loc main_arg3)) (m ((c : Thread nD τ).loc main_arg4)))
    (rows (F := Ideal) (m ((c : Thread nD τ).loc main_arg2)) (m ((c : Thread nD τ).loc main_arg5)) (m ((c : Thread nD τ).loc main_arg6)))
    (offs (F := Ideal) (m ((c : Thread nD τ).loc main_arg2)) (m ((c : Thread nD τ).loc main_arg7)) (m ((c : Thread nD τ).loc main_arg8)))
    (win0_5.index t (0 : Fin 3)) (win0_5.index t (1 : Fin 3)) hI hJ bl p d
    (iblk m c 1 t) (iblk m c 0 t) (iblk m c 3 t) (iblk m c 2 t) (iblk m c 4 t) hP ?_ ?_ ?_ ?_ ?_).trans ?_
  · intro k
    show (V m c main_arg1 : S128x2048x64.Idx → EReal) (((cfg0.win 1).blk t).view.emb (ix3 bl p k)) = _
    refine congrArg _ (funext fun a => Fin.ext ?_)
    match a with
    | ⟨0, _⟩ => show win0_1.index t (0 : Fin 3) * 8 + 1 * bl.val = win0_5.index t (0 : Fin 3) * 8 + bl.val; omega
    | ⟨1, _⟩ => show win0_1.index t (1 : Fin 3) * 512 + 1 * p.val = win0_5.index t (1 : Fin 3) * 512 + p.val; omega
    | ⟨2, _⟩ => show win0_1.index t (2 : Fin 3) * 64 + 1 * k.val = k.val; omega
  · show (V m c main_arg0 : S128x2048.Idx → BitVec 32) (((cfg0.win 0).blk t).view.emb (ix2 bl p)) = _
    refine congrArg _ (funext fun a => Fin.ext ?_)
    match a with
    | ⟨0, _⟩ => show win0_0.index t (0 : Fin 2) * 8 + 1 * bl.val = win0_5.index t (0 : Fin 3) * 8 + bl.val; omega
    | ⟨1, _⟩ => show win0_0.index t (1 : Fin 2) * 512 + 1 * p.val = win0_5.index t (1 : Fin 3) * 512 + p.val; omega
  · intro r k
    have hr := r.isLt
    show (V m c main_v24 : S1024x64.Idx → EReal) (((cfg0.win 3).blk t).view.emb (ix2 r k)) = _
    rw [V_directions]
    refine congrArg _ (funext fun a => Fin.ext ?_)
    match a with
    | ⟨0, _⟩ => show win0_3.index t (0 : Fin 2) * 64 + 1 * r.val = win0_5.index t (0 : Fin 3) * 64 + r.val; omega
    | ⟨1, _⟩ => show win0_3.index t (1 : Fin 2) * 64 + 1 * k.val = k.val; omega
  · intro r k
    have hr := r.isLt
    show (V m c main_v22 : S1024x64.Idx → EReal) (((cfg0.win 2).blk t).view.emb (ix2 r k)) = _
    rw [V_weights]
    refine congrArg _ (funext fun a => Fin.ext ?_)
    match a with
    | ⟨0, _⟩ => show win0_2.index t (0 : Fin 2) * 64 + 1 * r.val = win0_5.index t (0 : Fin 3) * 64 + r.val; omega
    | ⟨1, _⟩ => show win0_2.index t (1 : Fin 2) * 64 + 1 * k.val = k.val; omega
  · intro r
    have hr := r.isLt
    show (V m c main_v25 : S1024x1.Idx → EReal) (((cfg0.win 4).blk t).view.emb (ix2 r (0 : Fin 1))) = _
    rw [V_offsets]
    refine congrArg _ (funext fun a => Fin.ext ?_)
    match a with
    | ⟨0, _⟩ => show win0_4.index t (0 : Fin 2) * 64 + 1 * r.val = win0_5.index t (0 : Fin 3) * 64 + r.val; omega
    | ⟨1, _⟩ => show win0_4.index t (1 : Fin 2) * 1 + 1 * 0 = 0; omega
  · refine Eq.trans ?_ (read_out _ t (ix3 bl p d)).symm
    rw [← Planar.flow_apply]
    refine congrArg _ (funext fun a => Fin.ext ?_)
    match a with
    | ⟨0, _⟩ => show win0_5.index t (0 : Fin 3) * 8 + bl.val = win0_5.index t (0 : Fin 3) * 8 + 1 * bl.val; omega
    | ⟨1, _⟩ => show win0_5.index t (1 : Fin 3) * 512 + p.val = win0_5.index t (1 : Fin 3) * 512 + 1 * p.val; omega
    | ⟨2, _⟩ => show d.val = win0_5.index t (2 : Fin 3) * 64 + 1 * d.val; omega

/-- An index of the array is in point `t`'s block iff each coordinate is in the block's range on its axis. -/
theorem mem_blk (t : Fin cfg0.N) (i : S128x2048x64.Idx) :
    i ∈ ((cfg0.win 5).blk t).view.set ↔ ∀ a : Fin 3, win0_5.index t a * S8x512x64.size a ≤ (i a).val
      ∧ (i a).val < win0_5.index t a * S8x512x64.size a + S8x512x64.size a := by
  show i ∈ ((View.whole main_v26).slice (win0_5.rect t)).set ↔ _
  rw [View.set_slice_whole, Rect.mem_set_unit]
  exact Iff.rfl

/-- The blocks tile the array: entry `(b, p, d)` is in the block of point `(b / 8, p / 512)`. -/
theorem cover (i : S128x2048x64.Idx) : ∃ t : Fin cfg0.N, (cfg0.win 5).flush t = true ∧ i ∈ ((cfg0.win 5).blk t).view.set := by
  have hi0 : (i 0).val < 128 := (i 0).isLt
  have hi1 : (i 1).val < 2048 := (i 1).isLt
  have hi2 : (i 2).val < 64 := (i 2).isLt
  obtain ⟨t, ht⟩ := idx_onto ⟨(i 0).val / 8, by omega⟩ ⟨(i 1).val / 512, by omega⟩
  have q0 : win0_5.index t (0 : Fin 3) = (i 0).val / 8 := congrFun ht 0
  have q1 : win0_5.index t (1 : Fin 3) = (i 1).val / 512 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 8 ≤ (i 0).val ∧ (i 0).val < win0_5.index t (0 : Fin 3) * 8 + 8; omega
  | ⟨1, _⟩ => show win0_5.index t (1 : Fin 3) * 512 ≤ (i 1).val ∧ (i 1).val < win0_5.index t (1 : Fin 3) * 512 + 512; omega
  | ⟨2, _⟩ => show win0_5.index t (2 : Fin 3) * 64 ≤ (i 2).val ∧ (i 2).val < win0_5.index t (2 : Fin 3) * 64 + 64; omega

/-- THE ARRAY after the run: the planar flow of the argument arrays with the parameter arrays the host operations build. -/
theorem final (c : Dev nD) (hm : ∀ i : S128x2048.Idx, ((m ((c : Thread nD τ).loc main_arg0) : S128x2048.Idx → BitVec 32) i).toNat < 8) :
    (dats m 0 c).arrAt 5 cfg0.N
      = Planar.flow (m ((c : Thread nD τ).loc main_arg0)) (m ((c : Thread nD τ).loc main_arg1))
        (rows (F := Ideal) (m ((c : Thread nD τ).loc main_arg2)) (m ((c : Thread nD τ).loc main_arg3)) (m ((c : Thread nD τ).loc main_arg4)))
        (rows (F := Ideal) (m ((c : Thread nD τ).loc main_arg2)) (m ((c : Thread nD τ).loc main_arg5)) (m ((c : Thread nD τ).loc main_arg6)))
        (offs (F := Ideal) (m ((c : Thread nD τ).loc main_arg2)) (m ((c : Thread nD τ).loc main_arg7)) (m ((c : Thread nD τ).loc main_arg8))) := by
  have hmV : ∀ i : S128x2048.Idx, ((V m c main_arg0 : S128x2048.Idx → BitVec 32) i).toNat < 8 := by
    rw [V_words]; exact hm
  refine ((dats m 0 c).arrAt_eq_of_cover 5 _ (fun t _ => flushed_eq m c hmV t) cover).trans ?_
  rw [V_words, V_state]

/-- The frame run re-posted: the result array at the flow of the arguments, the arguments unchanged. -/
theorem run (hm : ∀ (c : Dev nD) (i : S128x2048.Idx), ((m ((c : Thread nD τ).loc main_arg0) : S128x2048.Idx → BitVec 32) i).toNat < 8) :
    θ_run defs (onTc (τ := τ) (main (F := Ideal))) ⟨m, fun _ => 0, ρ⟩ fun r => ∀ c : Dev nD,
      r.2.mem ((c : Thread nD τ).loc main_v26)
        = Planar.flow (m ((c : Thread nD τ).loc main_arg0)) (m ((c : Thread nD τ).loc main_arg1))
          (rows (F := Ideal) (m ((c : Thread nD τ).loc main_arg2)) (m ((c : Thread nD τ).loc main_arg3)) (m ((c : Thread nD τ).loc main_arg4)))
          (rows (F := Ideal) (m ((c : Thread nD τ).loc main_arg2)) (m ((c : Thread nD τ).loc main_arg5)) (m ((c : Thread nD τ).loc main_arg6)))
          (offs (F := Ideal) (m ((c : Thread nD τ).loc main_arg2)) (m ((c : Thread nD τ).loc main_arg7)) (m ((c : Thread nD τ).loc main_arg8)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c (hm c)), (h c).2⟩) (Value.run_blocks m ρ)

end Cert.KernelIdeal.Whole

end
-- ==== Proof.LibGatherPair.lean ====
/-
  A `stablehlo.gather` of last-axis rows of a rank-3 array `[A, B, C]` at an array `[R, P, 2]` of index PAIRS
  (what `x[i, j]` with two integer index arrays lowers to: offset_dims [2], collapsed_slice_dims [0, 1],
  start_index_map [0, 1], index_vector_dim 2, slice_sizes [1, 1, C]), read at one element:
  result entry `(r, p, c)` is the operand at `(clamp i, clamp j, c)`, where `i = idx[r, p, 0]` and `j = idx[r, p, 1]`
  are read as signed integers and clamped into `[0, A - 1]` and `[0, B - 1]`.
  Stated over `pairDims A B C R P`, which a program's printed gather record of this form equals by `rfl`.
-/
import Idealize.ShloMosaic.Lib.ValueIdx

noncomputable section

namespace Cert.LibGatherPair

open Idealize.ShloMosaic Idealize.ShloMosaic.ValueIdx

/-- The dimension numbers of a gather of rows `[C]` of an `[A, B, C]` operand at `[R, P, 2]` index pairs. -/
abbrev pairDims (A B C R P : Nat)
    (wf : GatherDims.WF ⟨3, ![A, B, C]⟩ ⟨3, ![R, P, 2]⟩ ⟨3, ![R, P, C]⟩ [2] [0, 1] [] [0, 1] [] 2 ![1, 1, C]) :
    GatherDims ⟨3, ![A, B, C]⟩ ⟨3, ![R, P, 2]⟩ ⟨3, ![R, P, C]⟩ where
  offsetDims := [2]
  collapsedSliceDims := [0, 1]
  operandBatchingDims := []
  startIndicesBatchingDims := []
  startIndexMap := [0, 1]
  indexVectorDim := 2
  sliceSizes := ![1, 1, C]
  wf := wf

variable {α : Type}

theorem zero_mem : (0 : Fin 3) ∈ ([0, 1] : List (Fin 3)) := by decide
theorem one_mem : (1 : Fin 3) ∈ ([0, 1] : List (Fin 3)) := by decide
theorem two_not_mem : ¬ (2 : Fin 3) ∈ ([0, 1] : List (Fin 3)) := by decide

/-- THE GATHER READ AT `(r, p, c)`: the operand at the two start indices of `(r, p)`, each read signed and clamped
    into its axis, and the offset `c` on the last axis. -/
theorem gather_pair_apply {A B C R P w : Nat} (hA : 0 < A) (hB : 0 < B)
    (wf : GatherDims.WF ⟨3, ![A, B, C]⟩ ⟨3, ![R, P, 2]⟩ ⟨3, ![R, P, C]⟩ [2] [0, 1] [] [0, 1] [] 2 ![1, 1, C])
    (x : (⟨3, ![A, B, C]⟩ : Shape).Idx → α) (idx : IVec ⟨3, ![R, P, 2]⟩ w) (r : Fin R) (p : Fin P) (c : Fin C) :
    Host.gather (pairDims A B C R P wf) x idx (ix3 r p c)
      = x (ix3 (⟨min (idx (ix3 r p (0 : Fin 2))).toInt.toNat (A - 1), by omega⟩ : Fin A)
            (⟨min (idx (ix3 r p (1 : Fin 2))).toInt.toNat (B - 1), by omega⟩ : Fin B) c) := by
  unfold Host.gather
  congr 1
  funext a
  refine Fin.ext ?_
  match a with
  | ⟨0, _⟩ =>
    show (pairDims A B C R P wf).start (ix3 r p c) idx 0 + (pairDims A B C R P wf).batchCoord (ix3 r p c) 0
      + (pairDims A B C R P wf).offCoord (ix3 r p c) 0 = min (idx (ix3 r p (0 : Fin 2))).toInt.toNat (A - 1)
    rw [GatherDims.batchCoord_eq_zero _ _ _ List.not_mem_nil,
      GatherDims.offCoord_eq_zero _ _ _ (fun h => ((GatherDims.mem_sKept _ _).mp h).1 zero_mem)]
    simp only [Nat.add_zero]
    unfold GatherDims.start
    rw [dif_pos (show (0 : Fin 3) ∈ (pairDims A B C R P wf).startIndexMap from zero_mem)]
    have hsi : (pairDims A B C R P wf).siIdx (ix3 r p c) ⟨List.idxOf (0 : Fin 3) (pairDims A B C R P wf).startIndexMap,
        List.idxOf_lt_length_iff.2 zero_mem⟩ = ix3 r p (0 : Fin 2) := by
      funext b; refine Fin.ext ?_
      match b with
      | ⟨0, _⟩ => rfl
      | ⟨1, _⟩ => rfl
      | ⟨2, _⟩ => rfl
    rw [hsi]
    rfl
  | ⟨1, _⟩ =>
    show (pairDims A B C R P wf).start (ix3 r p c) idx 1 + (pairDims A B C R P wf).batchCoord (ix3 r p c) 1
      + (pairDims A B C R P wf).offCoord (ix3 r p c) 1 = min (idx (ix3 r p (1 : Fin 2))).toInt.toNat (B - 1)
    rw [GatherDims.batchCoord_eq_zero _ _ _ List.not_mem_nil,
      GatherDims.offCoord_eq_zero _ _ _ (fun h => ((GatherDims.mem_sKept _ _).mp h).1 one_mem)]
    simp only [Nat.add_zero]
    unfold GatherDims.start
    rw [dif_pos (show (1 : Fin 3) ∈ (pairDims A B C R P wf).startIndexMap from one_mem)]
    have hsi : (pairDims A B C R P wf).siIdx (ix3 r p c) ⟨List.idxOf (1 : Fin 3) (pairDims A B C R P wf).startIndexMap,
        List.idxOf_lt_length_iff.2 one_mem⟩ = ix3 r p (1 : Fin 2) := by
      funext b; refine Fin.ext ?_
      match b with
      | ⟨0, _⟩ => rfl
      | ⟨1, _⟩ => rfl
      | ⟨2, _⟩ => rfl
    rw [hsi]
    rfl
  | ⟨2, _⟩ =>
    show (pairDims A B C R P wf).start (ix3 r p c) idx 2 + (pairDims A B C R P wf).batchCoord (ix3 r p c) 2
      + (pairDims A B C R P wf).offCoord (ix3 r p c) 2 = c.val
    rw [GatherDims.batchCoord_eq_zero _ _ _ List.not_mem_nil]
    unfold GatherDims.start
    rw [dif_neg (show ¬ (2 : Fin 3) ∈ (pairDims A B C R P wf).startIndexMap from two_not_mem)]
    unfold GatherDims.offCoord
    rw [dif_pos (show (2 : Fin 3) ∈ (pairDims A B C R P wf).sKept from
      (GatherDims.mem_sKept _ _).mpr ⟨two_not_mem, List.not_mem_nil⟩)]
    simp only [Nat.zero_add, Nat.add_zero]
    rfl

end Cert.LibGatherPair

end
-- ==== Proof.RefValue.lean ====
/-
  The reference's result as the planar flow of its own parameter arrays.
  `w[bidx, m]` lowers to a gather at index pairs (batch row, component), each of the pair first wrapped
  (a negative index has the axis length added) and then clamped by the gather. The batch row is an iota, so wrapping
  and clamping leave it; a component word in `[0, 8)` is left by both as well. So the gather reads row
  `(b, m[b, p])` of the parameter array, and the rest of the reference is the flow's arithmetic term by term.
-/
import proofs.«425392_j84765474554410_3_alg».proof.Proof.Gen.ReferenceIdeal.Read
import proofs.«425392_j84765474554410_3_alg».proof.Proof.Spec
import proofs.«425392_j84765474554410_3_alg».proof.Proof.LibGatherPair
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.ValueIdx

/-! ## Words: wrapping and clamping leave an in-range index alone -/

/-- A batch row below 128, as a word, is not negative: the wrap leaves it. -/
theorem wrap_row : ∀ b : Fin 128, Scalar.select (IntOp.cmpi .slt (BitVec.ofNat 32 b.val) 0#32)
    (IntOp.addi (BitVec.ofNat 32 b.val) 128#32) (BitVec.ofNat 32 b.val) = BitVec.ofNat 32 b.val := by
  decide

/-- A component word below 8 is not negative: the wrap leaves it. -/
theorem wrap_small : ∀ a : Fin 8, Scalar.select (IntOp.cmpi .slt (BitVec.ofNat 32 a.val) 0#32)
    (IntOp.addi (BitVec.ofNat 32 a.val) 8#32) (BitVec.ofNat 32 a.val) = BitVec.ofNat 32 a.val := by
  decide

theorem wrap_comp (w : BitVec 32) (h : w.toNat < 8) :
    Scalar.select (IntOp.cmpi .slt w 0#32) (IntOp.addi w 8#32) w = w := by
  have e : w = BitVec.ofNat 32 w.toNat := by
    apply BitVec.eq_of_toNat_eq; rw [BitVec.toNat_ofNat]; omega
  have := wrap_small ⟨w.toNat, h⟩
  rw [← e] at this
  exact this

/-- The clamp of a batch-row word into `[0, 127]` is the row. -/
theorem clamp_row (b : Fin 128) : min (BitVec.ofNat 32 b.val).toInt.toNat (128 - 1) = b.val := by
  have hb := b.isLt
  rw [StableHlo.Predicate.toInt_ofNat_small b.val (by omega)]
  simp only [Int.toNat_natCast]
  omega

/-- The clamp of a component word below 8 into `[0, 7]` is the component it names. -/
theorem clamp_comp (w : BitVec 32) (h : w.toNat < 8) : min w.toInt.toNat (8 - 1) = (Planar.comp w).val := by
  rw [StableHlo.Predicate.toInt_eq_toNat_of_lt (by omega), Planar.comp_val w h]
  simp only [Int.toNat_natCast]
  omega

/-! ## The index pairs -/

/-- The pair array at `(b, p)`: first the batch row `b`, second the component word of `(b, p)`. -/
theorem pair_fst (x0 : (⟨S128x2048, .i32⟩ : BufTy).Contents (Elt Ideal)) (b : Fin 128) (p : Fin 2048) :
    val_main_v36 (F := Ideal) x0 (ix3 b p (0 : Fin 2)) = BitVec.ofNat 32 b.val := by
  unfold val_main_v36
  refine (concatenate_pair_apply_left (t := S128x2048x2) (s₁ := S128x2048x1) (s₂ := S128x2048x1) (2 : Fin 3) _ _ _ (ix3 b p (0 : Fin 2)) rfl (ix3 b p (0 : Fin 1)) (fun a => ?_)).trans ?_
  · match a with
    | ⟨0, _⟩ => rfl
    | ⟨1, _⟩ => rfl
    | ⟨2, _⟩ => rfl
  rw [val_main_v34_apply, val_main_v33_apply, val_main_v27_apply, val_main_v24_apply, val_main_v26_apply, val_main_v22_apply,
    val_main_v23_apply, val_main_v25_apply, val_main_v21_apply, val_main_c_apply, val_main_c_0_apply]
  exact wrap_row b

theorem idx35 (b : Fin 128) (p : Fin 2048) : idx_main_v35 (ix3 b p (0 : Fin 1)) = ix2 b p :=
  funext fun a => Fin.ext (by match a with | ⟨0, _⟩ => rfl | ⟨1, _⟩ => rfl)

theorem pair_snd (x0 : (⟨S128x2048, .i32⟩ : BufTy).Contents (Elt Ideal)) (b : Fin 128) (p : Fin 2048)
    (h : (x0 (ix2 b p)).toNat < 8) :
    val_main_v36 (F := Ideal) x0 (ix3 b p (1 : Fin 2)) = x0 (ix2 b p) := by
  unfold val_main_v36
  refine (concatenate_pair_apply_right (t := S128x2048x2) (s₁ := S128x2048x1) (s₂ := S128x2048x1) (2 : Fin 3) _ _ _ (ix3 b p (1 : Fin 2)) rfl rfl (ix3 b p (0 : Fin 1)) (fun a ha => ?_) rfl).trans ?_
  · match a with
    | ⟨0, _⟩ => rfl
    | ⟨1, _⟩ => rfl
    | ⟨2, _⟩ => exact absurd rfl ha
  rw [val_main_v35_apply, val_main_v32_apply, val_main_v29_apply, val_main_v31_apply, val_main_v28_apply, val_main_v30_apply,
    val_main_c_1_apply, val_main_c_2_apply, idx35]
  exact wrap_comp _ h

/-- The three gathers read the same pair array: the program rebuilds it for each, operation by operation. -/
theorem pairs_u (x0 : (⟨S128x2048, .i32⟩ : BufTy).Contents (Elt Ideal)) : val_main_v51 (F := Ideal) x0 = val_main_v36 (F := Ideal) x0 := rfl
theorem pairs_b (x0 : (⟨S128x2048, .i32⟩ : BufTy).Contents (Elt Ideal)) : val_main_v66 (F := Ideal) x0 = val_main_v36 (F := Ideal) x0 := rfl

/-! ## The gathers -/

/-- The operand index a gather at these pairs reads: row `(b, m[b, p])`. -/
theorem row_idx (x0 : (⟨S128x2048, .i32⟩ : BufTy).Contents (Elt Ideal)) (h : ∀ i, (x0 i).toNat < 8) (b : Fin 128) (p : Fin 2048) :
    (⟨min (val_main_v36 (F := Ideal) x0 (ix3 b p (0 : Fin 2))).toInt.toNat (128 - 1), by omega⟩ : Fin 128) = b
    ∧ (⟨min (val_main_v36 (F := Ideal) x0 (ix3 b p (1 : Fin 2))).toInt.toNat (8 - 1), by omega⟩ : Fin 8) = Planar.comp (x0 (ix2 b p)) := by
  constructor
  · refine Fin.ext ?_
    show min (val_main_v36 (F := Ideal) x0 (ix3 b p (0 : Fin 2))).toInt.toNat (128 - 1) = b.val
    rw [pair_fst]; exact clamp_row b
  · refine Fin.ext ?_
    show min (val_main_v36 (F := Ideal) x0 (ix3 b p (1 : Fin 2))).toInt.toNat (8 - 1) = (Planar.comp (x0 (ix2 b p))).val
    rw [pair_snd x0 b p (h _)]; exact clamp_comp _ (h _)

/-- The gathered weight rows. -/
theorem gather_w (x0 : (⟨S128x2048, .i32⟩ : BufTy).Contents (Elt Ideal)) (h : ∀ i, (x0 i).toNat < 8)
    (x2 : (⟨S128x64, .f32⟩ : BufTy).Contents (Elt Ideal)) (x3 : (⟨S512x64, .f32⟩ : BufTy).Contents (Elt Ideal)) (x4 : (⟨S512, .f32⟩ : BufTy).Contents (Elt Ideal))
    (b : Fin 128) (p : Fin 2048) (d : Fin 64) :
    val_main_v37 (F := Ideal) x0 x2 x3 x4 (ix3 b p d) = val_main_v6 (F := Ideal) x2 x3 x4 (ix3 b (Planar.comp (x0 (ix2 b p))) d) := by
  unfold val_main_v37
  refine (LibGatherPair.gather_pair_apply (A := 128) (B := 8) (C := 64) (R := 128) (P := 2048) (by decide) (by decide) _ _ _ b p d).trans ?_
  rw [(row_idx x0 h b p).1, (row_idx x0 h b p).2]

/-- The gathered direction rows. -/
theorem gather_u (x0 : (⟨S128x2048, .i32⟩ : BufTy).Contents (Elt Ideal)) (h : ∀ i, (x0 i).toNat < 8)
    (x2 : (⟨S128x64, .f32⟩ : BufTy).Contents (Elt Ideal)) (x5 : (⟨S512x64, .f32⟩ : BufTy).Contents (Elt Ideal)) (x6 : (⟨S512, .f32⟩ : BufTy).Contents (Elt Ideal))
    (b : Fin 128) (p : Fin 2048) (d : Fin 64) :
    val_main_v52 (F := Ideal) x0 x2 x5 x6 (ix3 b p d) = val_main_v13 (F := Ideal) x2 x5 x6 (ix3 b (Planar.comp (x0 (ix2 b p))) d) := by
  unfold val_main_v52
  rw [pairs_u]
  refine (LibGatherPair.gather_pair_apply (A := 128) (B := 8) (C := 64) (R := 128) (P := 2048) (by decide) (by decide) _ _ _ b p d).trans ?_
  rw [(row_idx x0 h b p).1, (row_idx x0 h b p).2]

/-- The gathered offsets. -/
theorem gather_b (x0 : (⟨S128x2048, .i32⟩ : BufTy).Contents (Elt Ideal)) (h : ∀ i, (x0 i).toNat < 8)
    (x2 : (⟨S128x64, .f32⟩ : BufTy).Contents (Elt Ideal)) (x7 : (⟨S8x64, .f32⟩ : BufTy).Contents (Elt Ideal)) (x8 : (⟨S8, .f32⟩ : BufTy).Contents (Elt Ideal))
    (b : Fin 128) (p : Fin 2048) :
    val_main_v67 (F := Ideal) x0 x2 x7 x8 (ix3 b p (0 : Fin 1)) = val_main_v20 (F := Ideal) x2 x7 x8 (ix3 b (Planar.comp (x0 (ix2 b p))) (0 : Fin 1)) := by
  unfold val_main_v67
  rw [pairs_b]
  refine (LibGatherPair.gather_pair_apply (A := 128) (B := 8) (C := 1) (R := 128) (P := 2048) (by decide) (by decide) _ _ _ b p (0 : Fin 1)).trans ?_
  rw [(row_idx x0 h b p).1, (row_idx x0 h b p).2]

/-! ## The reference is the flow -/

theorem idx73 (b : Fin 128) (p : Fin 2048) (d : Fin 64) : idx_main_v73 (ix3 b p d) = ix3 b p (0 : Fin 1) :=
  funext fun a => Fin.ext (by match a with | ⟨0, _⟩ => rfl | ⟨1, _⟩ => rfl | ⟨2, _⟩ => rfl)
theorem idx70 (b : Fin 128) (p : Fin 2048) : idx_main_v70 (ix3 b p (0 : Fin 1)) = ix2 b p :=
  funext fun a => Fin.ext (by match a with | ⟨0, _⟩ => rfl | ⟨1, _⟩ => rfl)
theorem idx69 (b : Fin 128) (p : Fin 2048) (k : Fin 64) : idx_main_v69 (ix2 b p) k = ix3 b p k :=
  funext fun a => Fin.ext (by match a with | ⟨0, _⟩ => rfl | ⟨1, _⟩ => rfl | ⟨2, _⟩ => rfl)

/-- THE REFERENCE'S RESULT: the planar flow of the state with the reference's own parameter arrays, at every component
    array with entries in `[0, 8)`. -/
theorem result_eq (x0 : (⟨S128x2048, .i32⟩ : BufTy).Contents (Elt Ideal)) (h : ∀ i, (x0 i).toNat < 8)
    (x1 : (⟨S128x2048x64, .f32⟩ : BufTy).Contents (Elt Ideal)) (x2 : (⟨S128x64, .f32⟩ : BufTy).Contents (Elt Ideal))
    (x3 : (⟨S512x64, .f32⟩ : BufTy).Contents (Elt Ideal)) (x4 : (⟨S512, .f32⟩ : BufTy).Contents (Elt Ideal))
    (x5 : (⟨S512x64, .f32⟩ : BufTy).Contents (Elt Ideal)) (x6 : (⟨S512, .f32⟩ : BufTy).Contents (Elt Ideal))
    (x7 : (⟨S8x64, .f32⟩ : BufTy).Contents (Elt Ideal)) (x8 : (⟨S8, .f32⟩ : BufTy).Contents (Elt Ideal)) :
    val_main_v75 (F := Ideal) x0 x1 x2 x3 x4 x5 x6 x7 x8
      = Planar.flow x0 x1 (val_main_v6 (F := Ideal) x2 x3 x4) (val_main_v13 (F := Ideal) x2 x5 x6) (val_main_v20 (F := Ideal) x2 x7 x8) := by
  funext i
  obtain ⟨b, p, d, rfl⟩ : ∃ (b : Fin 128) (p : Fin 2048) (d : Fin 64), i = ix3 b p d := ⟨i 0, i 1, i 2, eq_ix3 i⟩
  rw [Planar.flow_apply]
  unfold Planar.flowAt
  rw [val_main_v75_apply, val_main_v74_apply, val_main_v73_apply, idx73, val_main_v72_apply, val_main_v71_apply, val_main_v70_apply, idx70,
    val_main_v69_apply, gather_u x0 h, gather_b x0 h]
  simp only [val_main_v68_apply, idx69, gather_w x0 h, val_main_cst_apply, Ideal.addf_def, Ideal.mulf_def, Ideal.hostUnary_tanh_def, Ideal.ofBits_def,
    Ideal.ofBits_zero_f32, zero_add]

end Cert.ReferenceIdeal.RefValue

end
-- ==== Proof.Domain.lean ====
/-
  The component words' range, read out of the precondition: its last two conjuncts say that every component word is
  at least 0 and below 8 as a signed integer, so as a natural number it is below 8.
-/
import proofs.«425392_j84765474554410_3_alg».proof.Proof.Gen.Pre_finite_inputs
import Idealize.ShloMosaic.Lib.ReduceAll
import Idealize.ShloMosaic.Lib.Affine
import Idealize.ShloMosaic.Lib.ValueIdx

noncomputable section

namespace Cert.Pre_finite_inputs.Domain

open Cert.Pre_finite_inputs Idealize.ShloMosaic Idealize.ShloMosaic.ValueIdx

instance : Subsingleton S_.Idx := ⟨fun a b => funext fun d => d.elim0⟩

/-- A word that is at least 0 and below 8 as a signed integer is below 8 as a natural number. -/
theorem toNat_lt_of_signed (w : BitVec 32) (h0 : (0#32 : BitVec 32).toInt ≤ w.toInt) (h8 : w.toInt < (8#32 : BitVec 32).toInt) :
    w.toNat < 8 := by
  have z : (0#32 : BitVec 32).toInt = 0 := by decide
  have e8 : (8#32 : BitVec 32).toInt = 8 := by decide
  rw [z] at h0; rw [e8] at h8
  have e := BitVec.toInt_eq_toNat_cond w
  have hw := w.isLt
  by_cases hc : 2 * w.toNat < 2 ^ 32
  · rw [if_pos hc] at e; omega
  · rw [if_neg hc] at e; omega

variable {F : FTy → Type} [FloatOps F]

/-- Under the precondition every component word is in `[0, 8)`. -/
theorem words_small (a0 : IVec S128x2048 32) (a1 : FVec F S128x2048x64 .f32) (a2 : FVec F S128x64 .f32)
    (a3 : FVec F S512x64 .f32) (a4 : FVec F S512 .f32) (a5 : FVec F S512x64 .f32) (a6 : FVec F S512 .f32)
    (a7 : FVec F S8x64 .f32) (a8 : FVec F S8 .f32)
    (h : fn (F := F) a0 a1 a2 a3 a4 a5 a6 a7 a8 = fun _ => 1#1) (i : S128x2048.Idx) : (a0 i).toNat < 8 := by
  have h0 := congrFun h ix0
  dsimp only [fn, fn_part1, fn_part2] at h0
  obtain ⟨h1, hlt⟩ := IntOp.andi_eq_one.mp h0
  obtain ⟨_, hge⟩ := IntOp.andi_eq_one.mp h1
  have hge' : IntOp.cmpi .sge (a0 i) 0#32 = 1#1 := Host.reduce_andi_all _ _ _ _ _ hge i
  have hlt' : IntOp.cmpi .slt (a0 i) 8#32 = 1#1 := Host.reduce_andi_all _ _ _ _ _ hlt i
  exact toNat_lt_of_signed _ (IntOp.cmpi_sge.mp hge') (IntOp.cmpi_slt.mp hlt')

end Cert.Pre_finite_inputs.Domain

end
-- ==== Proof.lean ====
/-
  Conditional planar flow: each particle `(b, p)` carries a mixture component `m[b, p]` in `[0, 8)` and its state row moves by
  `u[b, c, ·] · tanh(⟨s[b, p, ·], w[b, c, ·]⟩ + β[b, c])` with `c = m[b, p]`, the parameters `w, u, β` computed from the
  observation by three dense layers with a relu.
  The reference gathers the parameter rows at the index pairs `(b, m[b, p])`. The kernel multiplies a one-hot of the
  class `8 · (local batch row) + component` with the 64 flattened parameter rows its block holds, and sums the one-hot against
  the offsets: at the ideal values a sum against a 0/1 indicator keeps one term, so both read the same row. The two
  programs build the parameter arrays by the same host operations. Under the precondition every component word is in
  `[0, 8)`, where the kernel's clamp to `[0, 7]`, the reference's wrap of negative indices and the gather's clamp all leave
  it alone; for a negative word the two programs would read different rows.
  The kernel's frames are the generated ones; the reference's is its generated run; the one ledger entry is the
  widening of a narrowed value, the identity at the ideal values.
-/
import proofs.«425392_j84765474554410_3_alg».proof.Defs
import proofs.«425392_j84765474554410_3_alg».proof.Proof.Gen.Kernel
import proofs.«425392_j84765474554410_3_alg».proof.Proof.Gen.Kernel.Skeleton
import proofs.«425392_j84765474554410_3_alg».proof.Proof.Gen.Kernel.Launch
import proofs.«425392_j84765474554410_3_alg».proof.Proof.Gen.Kernel.Points
import proofs.«425392_j84765474554410_3_alg».proof.Proof.Gen.Kernel.Frame
import proofs.«425392_j84765474554410_3_alg».proof.Proof.Gen.KernelIdeal
import proofs.«425392_j84765474554410_3_alg».proof.Proof.Gen.KernelIdeal.Skeleton
import proofs.«425392_j84765474554410_3_alg».proof.Proof.Gen.KernelIdeal.Launch
import proofs.«425392_j84765474554410_3_alg».proof.Proof.Gen.KernelIdeal.Points
import proofs.«425392_j84765474554410_3_alg».proof.Proof.Gen.KernelIdeal.Frame
import proofs.«425392_j84765474554410_3_alg».proof.Proof.Gen.ReferenceIdeal
import proofs.«425392_j84765474554410_3_alg».proof.Proof.Gen.Pre_finite_inputs
import proofs.«425392_j84765474554410_3_alg».proof.Proof.Gen.KernelIdeal.Value
import proofs.«425392_j84765474554410_3_alg».proof.Proof.Gen.ReferenceIdeal.Run
import proofs.«425392_j84765474554410_3_alg».proof.Proof.Gen.ReferenceIdeal.Read
import proofs.«425392_j84765474554410_3_alg».proof.Proof.KernelValue
import proofs.«425392_j84765474554410_3_alg».proof.Proof.RefValue
import proofs.«425392_j84765474554410_3_alg».proof.Proof.Domain
import Idealize.ShloMosaic.Adequacy
import Idealize.ShloMosaic.Init

noncomputable section

namespace Cert.Proof

open Idealize.ShloMosaic Idealize.ShloMosaic.TcCoe Idealize.SL.Sem

/-! ## The two programs build the same parameter arrays -/

/-- The kernel's host operations and the reference's compute `relu (o · Wᵀ + bias)`, regrouped, by the same operations
    in the same order: one term. -/
theorem weights_eq (x2 : FVec Ideal Cert.KernelIdeal.S128x64 .f32) (x3 : FVec Ideal Cert.KernelIdeal.S512x64 .f32)
    (x4 : FVec Ideal Cert.KernelIdeal.S512 .f32) :
    Cert.KernelIdeal.Whole.rows (F := Ideal) x2 x3 x4 = Cert.ReferenceIdeal.Read.val_main_v6 (F := Ideal) x2 x3 x4 := rfl

theorem directions_eq (x2 : FVec Ideal Cert.KernelIdeal.S128x64 .f32) (x5 : FVec Ideal Cert.KernelIdeal.S512x64 .f32)
    (x6 : FVec Ideal Cert.KernelIdeal.S512 .f32) :
    Cert.KernelIdeal.Whole.rows (F := Ideal) x2 x5 x6 = Cert.ReferenceIdeal.Read.val_main_v13 (F := Ideal) x2 x5 x6 := rfl

theorem offsets_eq (x2 : FVec Ideal Cert.KernelIdeal.S128x64 .f32) (x7 : FVec Ideal Cert.KernelIdeal.S8x64 .f32)
    (x8 : FVec Ideal Cert.KernelIdeal.S8 .f32) :
    Cert.KernelIdeal.Whole.offs (F := Ideal) x2 x7 x8 = Cert.ReferenceIdeal.Read.val_main_v20 (F := Ideal) x2 x7 x8 := rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the one-hot, narrowed for the products and widened again for the sum against the offsets,
    is itself at the ideal values. -/
theorem preserves : Cert.preserves_Kernel_KernelIdeal :=
  IdealRules.truncf_extf.statement Cert.KernelIdeal.S8x512x64 .f32 .bf16

/-- Both results are the planar flow of the same arrays. -/
theorem algebraic : Cert.algebraic_KernelIdeal_ReferenceIdeal := by
  intro m ρ m' ρ' hpre hagree
  have hm : ∀ (c : Dev Cert.KernelIdeal.nD) (i : Cert.KernelIdeal.S128x2048.Idx),
      ((m ((c : Thread Cert.KernelIdeal.nD Cert.KernelIdeal.τ).loc Cert.KernelIdeal.main_arg0) : Cert.KernelIdeal.S128x2048.Idx → BitVec 32) i).toNat < 8 :=
    fun c i => Cert.Pre_finite_inputs.Domain.words_small _ _ _ _ _ _ _ _ _ (hpre c) i
  refine ⟨_, Cert.KernelIdeal.Whole.run m ρ hm, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v75_eq, e0, e1, e2, e3, e4, e5, e6, e7, e8,
    Cert.ReferenceIdeal.RefValue.result_eq _ (hm c), weights_eq, directions_eq, offsets_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
